-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S2x256x256 : Shape := ⟨3, ![2, 256, 256]⟩
abbrev S2x256 : Shape := ⟨2, ![2, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_

variable [Facts]

def fn_part1 {F : FTy → Type} [FloatOps F] (main_arg5 : FVec F S2x256 .f32) (main_v13 : IVec S_ 1) (main_v16 : IVec S2x256x256 1) : IVec S_ 1 :=
  let main_c_5 : IVec S_ 1 := constantI S_ 1 1#1
  let main_v17 : IVec S_ 1 := (fun x v => Host.reduce IntOp.andi x v reducesTo_S2x256x256_S_d0_1_2 h_S_) main_v16 main_c_5
  let main_v18 : IVec S_ 1 := andi main_v13 main_v17
  let main_v19 : FVec F S2x256 .f32 := Host.absf main_arg5
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x256 .f32) (main_arg3 : FVec F S256 .f32) (main_arg4 : FVec F S2x256x256 .f32) (main_arg5 : FVec F S2x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S2x256x256 .f32 := Host.absf main_arg4
  let main_cst_4 : FVec F S_ .f32 := constant S_ .f32 0x7F800000#32
  let main_v15 : FVec F S2x256x256 .f32 := broadcastInDim S2x256x256 ![] bcast_S_S2x256x256 main_cst_4
  let main_v16 : IVec S2x256x256 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S2x256x256 : Shape := ⟨3, ![2, 256, 256]⟩
abbrev S2x256 : Shape := ⟨2, ![2, 256]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S2000x256 : Shape := ⟨2, ![2000, 256]⟩
abbrev S1x256 : Shape := ⟨2, ![1, 256]⟩
abbrev S1x256x256 : Shape := ⟨3, ![1, 256, 256]⟩
abbrev S850000x256 : Shape := ⟨2, ![850000, 256]⟩

abbrev nBuf : Space → Nat
  | .hbm => 93
  | .vmem => 26
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S2x256x256, .f32⟩
  | .hbm, ⟨5, _⟩ => ⟨S2x256, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x256, .f32⟩
  | .hbm, ⟨49, _⟩ => ⟨S1x256x256, .f32⟩
  | .hbm, ⟨50, _⟩ => ⟨S256x256, .f32⟩
  | .hbm, ⟨51, _⟩ => ⟨S50000x256, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x256, .f32⟩
  | .hbm, ⟨61, _⟩ => ⟨S850000x1, .f32⟩
  | .hbm, ⟨62, _⟩ => ⟨S850000x256, .f32⟩
  | .hbm, ⟨63, _⟩ => ⟨S850000x256, .f32⟩
  | .hbm, ⟨64, _⟩ => ⟨S_, .f32⟩
  | .hbm, ⟨65, _⟩ => ⟨S50000x256, .f32⟩
  | .hbm, ⟨66, _⟩ => ⟨S850000x1, .i32⟩
  | .hbm, ⟨67, _⟩ => ⟨S50000x256, .f32⟩
  | .hbm, ⟨68, _⟩ => ⟨S1x256, .f32⟩
  | .hbm, ⟨69, _⟩ => ⟨S256, .f32⟩
  | .hbm, ⟨70, _⟩ => ⟨S50000x256, .f32⟩
  | .hbm, ⟨71, _⟩ => ⟨S1x256x256, .f32⟩
  | .hbm, ⟨72, _⟩ => ⟨S256x256, .f32⟩
  | .hbm, ⟨73, _⟩ => ⟨S50000x256, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x256, .f32⟩
  | .hbm, ⟨83, _⟩ => ⟨S850000x1, .f32⟩
  | .hbm, ⟨84, _⟩ => ⟨S850000x256, .f32⟩
  | .hbm, ⟨85, _⟩ => ⟨S850000x256, .f32⟩
  | .hbm, ⟨86, _⟩ => ⟨S_, .f32⟩
  | .hbm, ⟨87, _⟩ => ⟨S50000x256, .f32⟩
  | .hbm, ⟨88, _⟩ => ⟨S850000x1, .i32⟩
  | .hbm, ⟨89, _⟩ => ⟨S50000x256, .f32⟩
  | .hbm, ⟨90, _⟩ => ⟨S1x256, .f32⟩
  | .hbm, ⟨91, _⟩ => ⟨S256, .f32⟩
  | .hbm, ⟨92, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S256x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S256x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S256, .f32⟩
  | .local _ .vmem, ⟨24, _⟩ => ⟨S2000x256, .f32⟩
  | .local _ .vmem, ⟨25, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  slices_S2x256x256_S1x256x256_0_0_0 : S2x256x256.Slices ![0, 0, 0] S1x256x256
  shapeCasts_S1x256x256_S256x256 : S1x256x256.ShapeCasts S256x256
  shapeCasts_S2000x256_S2000x256 : S2000x256.ShapeCasts S2000x256
  shapeCasts_S256x256_S256x256 : S256x256.ShapeCasts S256x256
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  slices_S2x256_S1x256_0_0 : S2x256.Slices ![0, 0] S1x256
  shapeCasts_S1x256_S256 : S1x256.ShapeCasts S256
  shapeCasts_S256_S256 : S256.ShapeCasts S256
  slices_S2x256x256_S1x256x256_1_0_0 : S2x256x256.Slices ![1, 0, 0] S1x256x256
  slices_S2x256_S1x256_1_0 : S2x256.Slices ![1, 0] S1x256
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256.size a ≤ S256.size a
  hwx2_1 : ∀ i : grid2.Coords, EltTy.bits .f32 = 32 ∨ (Rect.block (s := S256) S256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256.size a ≤ S256.size a
  hwx4_1 : ∀ i : grid4.Coords, EltTy.bits .f32 = 32 ∨ (Rect.block (s := S256) S256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S50000x256.size a
  hwx4_2 : ∀ i : grid4.Coords, EltTy.bits .f32 = 32 ∨ (Rect.block (s := S50000x256) S2000x256.size (cc4_transform_2 i) (hinb4_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v50) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v66) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S2x256x256 : Shape := ⟨3, ![2, 256, 256]⟩
abbrev S2x256 : Shape := ⟨2, ![2, 256]⟩
abbrev S1x800000 : Shape := ⟨2, ![1, 800000]⟩
abbrev S800000 : Shape := ⟨1, ![800000]⟩
abbrev S1x256 : Shape := ⟨2, ![1, 256]⟩
abbrev S_ : Shape := ⟨0, ![]⟩
abbrev S1x256x256 : Shape := ⟨3, ![1, 256, 256]⟩
abbrev S50000 : Shape := ⟨1, ![50000]⟩
abbrev S850000 : Shape := ⟨1, ![850000]⟩
abbrev S850000x1 : Shape := ⟨2, ![850000, 1]⟩
abbrev S850000x256 : Shape := ⟨2, ![850000, 256]⟩

abbrev nBuf : Space → Nat
  | .hbm => 147
  | .vmem => 0
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S2x256x256, .f32⟩
  | 5 => ⟨S2x256, .f32⟩
  | 6 => ⟨S1x800000, .i32⟩
  | 7 => ⟨S800000, .i32⟩
  | 8 => ⟨S1x800000, .i32⟩
  | 9 => ⟨S800000, .i32⟩
  | 10 => ⟨S50000x256, .f32⟩
  | 11 => ⟨S1x256, .f32⟩
  | 12 => ⟨S50000x256, .f32⟩
  | 13 => ⟨S50000x256, .f32⟩
  | 14 => ⟨S_, .f32⟩
  | 15 => ⟨S50000x256, .f32⟩
  | 16 => ⟨S50000x256, .f32⟩
  | 17 => ⟨S1x256x256, .f32⟩
  | 18 => ⟨S256x256, .f32⟩
  | 19 => ⟨S1x256, .f32⟩
  | 20 => ⟨S256, .f32⟩
  | 21 => ⟨S50000x256, .f32⟩
  | 22 => ⟨S50000, .i32⟩
  | 23 => ⟨S850000, .i32⟩
  | 24 => ⟨S850000, .i32⟩
  | 25 => ⟨S_, .f32⟩
  | 26 => ⟨S850000, .f32⟩
  | 27 => ⟨S_, .f32⟩
  | 28 => ⟨S50000, .f32⟩
  | 29 => ⟨S850000x1, .i32⟩
  | 30 => ⟨S50000, .f32⟩
  | 31 => ⟨S_, .f32⟩
  | 32 => ⟨S50000, .f32⟩
  | 33 => ⟨S50000, .i1⟩
  | 34 => ⟨S_, .f32⟩
  | 35 => ⟨S50000, .f32⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000, .f32⟩
  | 59 => ⟨S850000, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x256, .f32⟩
  | 69 => ⟨S850000x1, .f32⟩
  | 70 => ⟨S850000x256, .f32⟩
  | 71 => ⟨S850000x256, .f32⟩
  | 72 => ⟨S_, .f32⟩
  | 73 => ⟨S50000x256, .f32⟩
  | 74 => ⟨S850000x1, .i32⟩
  | 75 => ⟨S50000x256, .f32⟩
  | 76 => ⟨S1x256, .f32⟩
  | 77 => ⟨S50000x256, .f32⟩
  | 78 => ⟨S50000x256, .f32⟩
  | 79 => ⟨S_, .f32⟩
  | 80 => ⟨S50000x256, .f32⟩
  | 81 => ⟨S50000x256, .f32⟩
  | 82 => ⟨S1x256x256, .f32⟩
  | 83 => ⟨S256x256, .f32⟩
  | 84 => ⟨S1x256, .f32⟩
  | 85 => ⟨S256, .f32⟩
  | 86 => ⟨S50000x256, .f32⟩
  | 87 => ⟨S50000, .i32⟩
  | 88 => ⟨S850000, .i32⟩
  | 89 => ⟨S850000, .i32⟩
  | 90 => ⟨S_, .f32⟩
  | 91 => ⟨S850000, .f32⟩
  | 92 => ⟨S_, .f32⟩
  | 93 => ⟨S50000, .f32⟩
  | 94 => ⟨S850000x1, .i32⟩
  | 95 => ⟨S50000, .f32⟩
  | 96 => ⟨S_, .f32⟩
  | 97 => ⟨S50000, .f32⟩
  | 98 => ⟨S50000, .i1⟩
  | 99 => ⟨S_, .f32⟩
  | 100 => ⟨S50000, .f32⟩
  | 101 => ⟨S50000, .f32⟩
  | 102 => ⟨S_, .f32⟩
  | 103 => ⟨S_, .f32⟩
  | 104 => ⟨S50000, .f32⟩
  | 105 => ⟨S50000, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000, .f32⟩
  | 124 => ⟨S850000, .f32⟩
  | 125 => ⟨S_, .i32⟩
  | 126 => ⟨S850000, .i32⟩
  | 127 => ⟨S850000, .i1⟩
  | _ => ⟨S50000x256, .f32⟩

abbrev hbmTy0_1 (i : Nat) : BufTy := match i % 128 with
  | 0 => ⟨S_, .i32⟩
  | 1 => ⟨S850000, .i32⟩
  | 2 => ⟨S850000, .i32⟩
  | 3 => ⟨S850000, .i32⟩
  | 4 => ⟨S850000x1, .i32⟩
  | 5 => ⟨S850000x256, .f32⟩
  | 6 => ⟨S850000x1, .f32⟩
  | 7 => ⟨S850000x256, .f32⟩
  | 8 => ⟨S850000x256, .f32⟩
  | 9 => ⟨S_, .f32⟩
  | 10 => ⟨S50000x256, .f32⟩
  | 11 => ⟨S850000x1, .i32⟩
  | 12 => ⟨S50000x256, .f32⟩
  | 13 => ⟨S1x256, .f32⟩
  | 14 => ⟨S50000x256, .f32⟩
  | 15 => ⟨S50000x256, .f32⟩
  | 16 => ⟨S_, .f32⟩
  | 17 => ⟨S50000x256, .f32⟩
  | 18 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_v25 : Ref sig .tc := ⟨.hbm, 40, rfl⟩
abbrev main_c : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_7 : Ref sig .tc := ⟨.hbm, 60, rfl⟩
abbrev main_v41 : Ref sig .tc := ⟨.hbm, 61, rfl⟩
abbrev main_v42 : Ref sig .tc := ⟨.hbm, 62, rfl⟩
abbrev main_c_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_call2_cst : Ref sig .tc := ⟨.hbm, 79, rfl⟩
abbrev main_call2_v0 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_10 : Ref sig .tc := ⟨.hbm, 90, rfl⟩
abbrev main_v66 : Ref sig .tc := ⟨.hbm, 91, rfl⟩
abbrev main_cst_11 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_12 : Ref sig .tc := ⟨.hbm, 96, rfl⟩
abbrev main_v70 : Ref sig .tc := ⟨.hbm, 97, rfl⟩
abbrev main_v71 : Ref sig .tc := ⟨.hbm, 98, rfl⟩
abbrev main_cst_13 : Ref sig .tc := ⟨.hbm, 99, rfl⟩
abbrev main_v72 : Ref sig .tc := ⟨.hbm, 100, rfl⟩
abbrev main_v73 : Ref sig .tc := ⟨.hbm, 101, rfl⟩
abbrev main_cst_14 : Ref sig .tc := ⟨.hbm, 102, rfl⟩
abbrev main_call3_v0 : Ref sig .tc := ⟨.hbm, 103, rfl⟩
abbrev main_call3_v1 : Ref sig .tc := ⟨.hbm, 104, rfl⟩
abbrev main_v74 : Ref sig .tc := ⟨.hbm, 105, rfl⟩
abbrev main_c_15 : Ref sig .tc := ⟨.hbm, 106, rfl⟩
abbrev main_v75 : Ref sig .tc := ⟨.hbm, 107, rfl⟩
abbrev main_v76 : Ref sig .tc := ⟨.hbm, 108, rfl⟩
abbrev main_c_16 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_c_17 : Ref sig .tc := ⟨.hbm, 115, rfl⟩
abbrev main_v82 : Ref sig .tc := ⟨.hbm, 116, rfl⟩
abbrev main_v83 : Ref sig .tc := ⟨.hbm, 117, rfl⟩
abbrev main_c_18 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_c_19 : Ref sig .tc := ⟨.hbm, 125, rfl⟩
abbrev main_v90 : Ref sig .tc := ⟨.hbm, 126, rfl⟩
abbrev main_v91 : Ref sig .tc := ⟨.hbm, 127, rfl⟩
abbrev main_c_20 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_21 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_call4_cst : Ref sig .tc := ⟨.hbm, 144, rfl⟩
abbrev main_call4_v0 : Ref sig .tc := ⟨.hbm, 145, rfl⟩
abbrev main_v106 : Ref sig .tc := ⟨.hbm, 146, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  slices_S2x256x256_S1x256x256_1_0_0 : S2x256x256.Slices ![1, 0, 0] S1x256x256
  slices_S2x256_S1x256_1_0 : S2x256.Slices ![1, 0] S1x256
  dot_S50000x256_S256x256_S50000x256_1_0_0_1_n_n_wf : DotDims.WF S50000x256 S256x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

class Facts : Prop extends Facts₀ where

variable [Facts]
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.LibPlainDot.lean ====
/-
  A HOST DOT PRODUCT READ AT AN ENTRY. jnp's `dot_general` of an m × k matrix by a k × n matrix (the left operand
  contracted on its columns, the right one on its rows, no batch axis) is, at the ideal values and at entry (a, b), the
  sum over the contracted coordinate c of A(a, c) · B(c, b), whatever the precision and the schedule: the same sum a
  kernel's matrix product into the zero splat gives.
-/
import proofs.«105945_j63513976373392_1_alg».proof.Proof.LibPlainMatmul

open scoped BigOperators

noncomputable section

namespace Idealize.ShloMosaic.PlainMatmul

open Idealize.ShloMosaic Idealize.ShloMosaic.ValueIdx

variable {m k n : Nat} {φ₁ φ₂ : FTy}

/-- The host's plain product at entry (a, b): the sum of the products along row a of A and column b of B. -/
theorem dotGeneral_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (sched : HostSchedule) (A : FVec Ideal ⟨2, ![m, k]⟩ φ₁) (B : FVec Ideal ⟨2, ![k, n]⟩ φ₂)
    (a : Fin m) (b : Fin n) :
    FloatOps.dotGeneral d prec sched A B (ix2 a b) = ∑ c : Fin k, A (ix2 a c) * B (ix2 c b) := by
  subst hd
  rw [Ideal.dotGeneral_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.Spec.lean ====
/-
  THE DENSE STEPS OF THE NETWORK, as functions of whole matrices over the extended reals.

  A graph-convolution layer here is: multiply the node features by a 256 × 256 weight matrix, gather, scale and
  scatter-add rows along the edges, add a bias row to every row, clamp below at zero. The first and the last two
  steps act on a matrix row by row, so each is one function of matrices with ANY number r of rows:

    mm x w        (a, b) ↦ ∑ c, x(a, c) · w(c, b)
    biasRelu x β  (a, b) ↦ max (x(a, b) + β(b)) 0

  Because both act row by row, rows p·n … p·n + n − 1 of the result are the same function of rows p·n … of the
  operand: that is what lets a kernel compute the result one block of rows at a time.
-/
import proofs.«105945_j63513976373392_1_alg».proof.Proof.LibPlainDot
import Idealize.ShloMosaic.Lib.ValueLayout

open scoped BigOperators

noncomputable section

namespace Cert.Dense

open Idealize.ShloMosaic Idealize.ShloMosaic.ValueIdx

variable {r : Nat}

/-- The product of an r × 256 matrix with a 256 × 256 matrix, entry by entry. -/
def mm (x : FVec Ideal ⟨2, ![r, 256]⟩ .f32) (w : FVec Ideal ⟨2, ![256, 256]⟩ .f32) : FVec Ideal ⟨2, ![r, 256]⟩ .f32 :=
  fun i => ∑ c : Fin 256, x (ix2 (i 0) c) * w (ix2 c (i 1))

/-- A bias row added to every row of an r × 256 matrix, then the clamp below at zero. -/
def biasRelu (x : FVec Ideal ⟨2, ![r, 256]⟩ .f32) (β : FVec Ideal ⟨1, ![256]⟩ .f32) : FVec Ideal ⟨2, ![r, 256]⟩ .f32 :=
  fun i => max (x i + β (ix1 (i 1))) (Ideal.ofBits .f32 0x00000000#32)

theorem mm_apply (x : FVec Ideal ⟨2, ![r, 256]⟩ .f32) (w : FVec Ideal ⟨2, ![256, 256]⟩ .f32) (a : Fin r) (b : Fin 256) :
    mm x w (ix2 a b) = ∑ c : Fin 256, x (ix2 a c) * w (ix2 c b) := rfl

theorem biasRelu_apply (x : FVec Ideal ⟨2, ![r, 256]⟩ .f32) (β : FVec Ideal ⟨1, ![256]⟩ .f32) (a : Fin r) (b : Fin 256) :
    biasRelu x β (ix2 a b) = max (x (ix2 a b) + β (ix1 b)) (Ideal.ofBits .f32 0x00000000#32) := rfl

/-! ## Rows of the result from rows of the operand -/

/-- If row a of x' is row ρ a of x, then row a of x' · w is row ρ a of x · w. -/
theorem mm_rows {r' : Nat} (x : FVec Ideal ⟨2, ![r, 256]⟩ .f32) (x' : FVec Ideal ⟨2, ![r', 256]⟩ .f32)
    (w : FVec Ideal ⟨2, ![256, 256]⟩ .f32) (ρ : Fin r' → Fin r)
    (hx : ∀ a c, x' (ix2 a c) = x (ix2 (ρ a) c)) (a : Fin r') (b : Fin 256) :
    mm x' w (ix2 a b) = mm x w (ix2 (ρ a) b) := by
  rw [mm_apply, mm_apply]
  exact Finset.sum_congr rfl fun c _ => by rw [hx]

/-- If row a of x' is row ρ a of x, then row a of the biased, clamped x' is row ρ a of the biased, clamped x. -/
theorem biasRelu_rows {r' : Nat} (x : FVec Ideal ⟨2, ![r, 256]⟩ .f32) (x' : FVec Ideal ⟨2, ![r', 256]⟩ .f32)
    (β : FVec Ideal ⟨1, ![256]⟩ .f32) (ρ : Fin r' → Fin r)
    (hx : ∀ a c, x' (ix2 a c) = x (ix2 (ρ a) c)) (a : Fin r') (b : Fin 256) :
    biasRelu x' β (ix2 a b) = biasRelu x β (ix2 (ρ a) b) := by
  rw [biasRelu_apply, biasRelu_apply, hx]

/-! ## The same steps as the host and a kernel body spell them -/

/-- The host's `dot_general` of an r × 256 by a 256 × 256 matrix is the product. -/
theorem dotGeneral_eq_mm (d : DotDims ⟨2, ![r, 256]⟩ ⟨2, ![256, 256]⟩ ⟨2, ![r, 256]⟩)
    (w : DotDims.WF ⟨2, ![r, 256]⟩ ⟨2, ![256, 256]⟩ ⟨2, ![r, 256]⟩ [1] [0] [0] [1] [] []) (hd : d = PlainMatmul.dims w)
    (prec : Option ContractPrecision) (sched : HostSchedule)
    (A : FVec Ideal ⟨2, ![r, 256]⟩ .f32) (B : FVec Ideal ⟨2, ![256, 256]⟩ .f32) :
    FloatOps.dotGeneral d prec sched A B = mm A B := by
  funext j
  obtain ⟨a, b, rfl⟩ : ∃ (a : Fin r) (b : Fin 256), j = ix2 a b := ⟨j 0, j 1, eq_ix2 j⟩
  rw [PlainMatmul.dotGeneral_apply d w hd, mm_apply]

/-- A kernel's matrix product into the zero splat, its operands first narrowed to any float format (the identity
    on extended reals), is the product. -/
theorem matmul_eq_mm {φ₁ φ₂ : FTy} (d : DotDims ⟨2, ![r, 256]⟩ ⟨2, ![256, 256]⟩ ⟨2, ![r, 256]⟩)
    (w : DotDims.WF ⟨2, ![r, 256]⟩ ⟨2, ![256, 256]⟩ ⟨2, ![r, 256]⟩ [1] [0] [0] [1] [] []) (hd : d = PlainMatmul.dims w)
    (prec : Option ContractPrecision)
    (A : FVec Ideal ⟨2, ![r, 256]⟩ .f32) (B : FVec Ideal ⟨2, ![256, 256]⟩ .f32)
    (A' : FVec Ideal ⟨2, ![r, 256]⟩ φ₁) (B' : FVec Ideal ⟨2, ![256, 256]⟩ φ₂) (hA : ∀ i, A' i = A i) (hB : ∀ i, B' i = B i) :
    matmul d prec A' B' (constant ⟨2, ![r, 256]⟩ .f32 0x00000000#32) = mm A B := by
  funext j
  obtain ⟨a, b, rfl⟩ : ∃ (a : Fin r) (b : Fin 256), j = ix2 a b := ⟨j 0, j 1, eq_ix2 j⟩
  rw [PlainMatmul.matmul_zero_apply d w hd, mm_apply]
  exact Finset.sum_congr rfl fun c _ => by rw [hA, hB]

/-- The bias row as a kernel body lays it out — the 256-vector cast to 1 × 256 and that row broadcast to r rows —
    read at an entry. -/
theorem bias_rows_apply (β : FVec Ideal ⟨1, ![256]⟩ .f32)
    (h₁ : (⟨1, ![256]⟩ : Shape).ShapeCasts ⟨2, ![1, 256]⟩) (h₂ : (⟨2, ![1, 256]⟩ : Shape).Broadcasts ⟨2, ![r, 256]⟩)
    (a : Fin r) (b : Fin 256) :
    broadcastTo ⟨2, ![r, 256]⟩ (shapeCast ⟨2, ![1, 256]⟩ β h₁) h₂ (ix2 a b) = β (ix1 b) := by
  rw [broadcastTo_1b_ab_apply, shapeCast_a_1a_apply]

/-- The bias row as the host lays it out — the 256-vector placed on axis 1 of a 1 × 256 array and that array on
    both axes of an r × 256 one — read at an entry. -/
theorem bias_host_apply (β : FVec Ideal ⟨1, ![256]⟩ .f32)
    (d₁ : Fin 1 → Fin 2) (hd₁ : d₁ = ![1]) (h₁ : (⟨1, ![256]⟩ : Shape).BroadcastsInDim ⟨2, ![1, 256]⟩ d₁)
    (d₂ : Fin 2 → Fin 2) (hd₂ : d₂ = ![0, 1]) (h₂ : (⟨2, ![1, 256]⟩ : Shape).BroadcastsInDim ⟨2, ![r, 256]⟩ d₂)
    (a : Fin r) (b : Fin 256) :
    broadcastInDim ⟨2, ![r, 256]⟩ d₂ h₂ (broadcastInDim ⟨2, ![1, 256]⟩ d₁ h₁ β) (ix2 a b) = β (ix1 b) := by
  subst hd₁ hd₂
  rw [broadcastInDim_apply _ h₂ _ (ix2 a b) (ix2 (0 : Fin 1) b) (fun ax => by
        match ax with
        | ⟨0, _⟩ => rfl
        | ⟨1, _⟩ => rfl),
      broadcastInDim_apply _ h₁ _ (ix2 (0 : Fin 1) b) (ix1 b) (fun ax => by
        match ax with
        | ⟨0, _⟩ => rfl)]

end Cert.Dense

end
-- ==== Proof.ValueProj.lean ====
/-
  THE FIRST PALLAS CALL, AS A VALUE: the projection x ↦ max (x · w + β) 0 of the 50000 × 256 feature matrix.

  The grid has 25 points; point t is handed rows 2000·t … 2000·t + 1999 of x, all of w and all of β, and writes
  back rows 2000·t … 2000·t + 1999 of the result. Its body stores max (x_t · w + β) 0 of the block x_t it loaded
  (the narrowing of both operands to bf16 before the product is the identity on extended reals). Since the
  projection acts on x row by row, what point t writes back IS rows 2000·t … of the projection of the whole x; the
  25 blocks of rows cover the array, so the array ends holding the projection of x — whatever contents the region
  is entered with.
-/
import proofs.«105945_j63513976373392_1_alg».proof.Proof.Gen.KernelIdeal.Frame
import proofs.«105945_j63513976373392_1_alg».proof.Proof.Spec
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense

theorem off2_zero : (![0, 0] : Fin 2 → Nat) = fun _ => 0 := funext fun a => by fin_cases a <;> rfl
theorem off1_zero : (![0] : Fin 1 → Nat) = fun _ => 0 := funext fun a => by fin_cases a <;> rfl

/-- Row a of the block of rows that grid point t works on is row 2000·t + a of the array. -/
def rowOf (t : Fin 25) (a : Fin 2000) : Fin 50000 := ⟨t.val * 2000 + a.val, by have := t.isLt; have := a.isLt; omega⟩

/-- What the projection body stores: the biased, clamped product of the blocks it loaded. -/
theorem proj_payload (x0 : Vec Ideal S2000x256 .f32) (x1 : Vec Ideal S256x256 .f32) (x2 : Vec Ideal S256 .f32) :
    k0_pay1 (F := Ideal) x0 x1 x2 = biasRelu (mm x0 x1) x2 := by
  funext j
  obtain ⟨a, b, rfl⟩ : ∃ (a : Fin 2000) (b : Fin 256), j = ix2 a b := ⟨j 0, j 1, eq_ix2 j⟩
  unfold k0_pay1
  rw [biasRelu_apply]
  show max (matmul (F := Ideal) dot_S2000x256_S256x256_S2000x256_1_0_0_1_n_n none (truncf (F := Ideal) .bf16 x0 bitsLt_bf16_f32)
        (truncf (F := Ideal) .bf16 x1 bitsLt_bf16_f32) (constant (F := Ideal) S2000x256 .f32 0x00000000#32) (ix2 a b)
      + broadcastTo S2000x256 (shapeCast S1x256 x2 shapeCasts_S256_S1x256) broadcasts_S1x256_S2000x256 (ix2 a b))
      (Ideal.ofBits .f32 0x00000000#32) = _
  rw [matmul_eq_mm (r := 2000) dot_S2000x256_S256x256_S2000x256_1_0_0_1_n_n dot_S2000x256_S256x256_S2000x256_1_0_0_1_n_n_wf rfl none x0 x1
        (truncf (F := Ideal) .bf16 x0 bitsLt_bf16_f32) (truncf (F := Ideal) .bf16 x1 bitsLt_bf16_f32) (fun _ => rfl) (fun _ => rfl),
      bias_rows_apply]

section Region0

variable (V : (c : Dev nD) → (b : Ref sig .tc) → Buf (Elt Ideal) ((c : Thread nD τ).loc b))

/-- The region's three input arrays as it finds them, and its three input blocks at a grid point, at their literal types. -/
abbrev xArr0 (c : Dev nD) : Vec Ideal S50000x256 .f32 := V c main_arg0
abbrev wArr0 (c : Dev nD) : Vec Ideal S256x256 .f32 := V c main_arg2
abbrev bArr0 (c : Dev nD) : Vec Ideal S256 .f32 := V c main_arg3
abbrev xBlk0 (c : Dev nD) (t : Fin cfg0.N) : Vec Ideal S2000x256 .f32 := iblk0 V c 0 t
abbrev wBlk0 (c : Dev nD) (t : Fin cfg0.N) : Vec Ideal S256x256 .f32 := iblk0 V c 1 t
abbrev bBlk0 (c : Dev nD) (t : Fin cfg0.N) : Vec Ideal S256 .f32 := iblk0 V c 2 t

/-- The printed index maps over the grid: the feature window and the result window are at block row t, block
    column 0; the weight and bias windows never move. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row a of the feature block at point t is row 2000·t + a of the feature array. -/
theorem xBlk0_apply (c : Dev nD) (t : Fin cfg0.N) (a : Fin 2000) (k : Fin 256) :
    xBlk0 V c t (ix2 a k) = xArr0 V c (ix2 (rowOf t a) k) := by
  obtain ⟨e0, e1, -, -, -, -, -⟩ := index_facts0 t
  show V c main_arg0 (((cfg0.win 0).blk t).view.emb (ix2 a k)) = V c main_arg0 (ix2 (rowOf t a) k)
  refine congrArg (V c main_arg0) (funext fun ax => Fin.ext ?_)
  match ax with
  | ⟨0, _⟩ => show win0_0.index t (0 : Fin 2) * 2000 + 1 * a.val = t.val * 2000 + a.val; rw [e0]; omega
  | ⟨1, _⟩ => show win0_0.index t (1 : Fin 2) * 256 + 1 * k.val = k.val; rw [e1]; omega

/-- The weight block at any point is the whole weight array. -/
theorem wBlk0_eq (c : Dev nD) (t : Fin cfg0.N) : wBlk0 V c t = wArr0 V c := by
  obtain ⟨-, -, e2, e3, -, -, -⟩ := index_facts0 t
  funext y
  show V c main_arg2 (((cfg0.win 1).blk t).view.emb y) = V c main_arg2 y
  refine congrArg (V c main_arg2) (funext fun ax => Fin.ext ?_)
  match ax with
  | ⟨0, _⟩ => show win0_1.index t (0 : Fin 2) * 256 + 1 * (y 0).val = (y 0).val; rw [e2]; omega
  | ⟨1, _⟩ => show win0_1.index t (1 : Fin 2) * 256 + 1 * (y 1).val = (y 1).val; rw [e3]; omega

/-- The bias block at any point is the whole bias vector. -/
theorem bBlk0_eq (c : Dev nD) (t : Fin cfg0.N) : bBlk0 V c t = bArr0 V c := by
  obtain ⟨-, -, -, -, e4, -, -⟩ := index_facts0 t
  funext y
  show V c main_arg3 (((cfg0.win 2).blk t).view.emb y) = V c main_arg3 y
  refine congrArg (V c main_arg3) (funext fun ax => Fin.ext ?_)
  match ax with
  | ⟨0, _⟩ => show win0_2.index t (0 : Fin 1) * 256 + 1 * (y 0).val = (y 0).val; rw [e4]; omega

/-- Entry (a, b) of the result block at point t sits at entry (2000·t + a, b) of the result array. -/
theorem outEmb0 (t : Fin cfg0.N) (a : Fin 2000) (b : Fin 256) :
    ((cfg0.win 3).blk t).view.emb (ix2 a b) = ix2 (rowOf t a) b := by
  obtain ⟨-, -, -, -, -, e5, e6⟩ := index_facts0 t
  funext ax; apply Fin.ext
  match ax with
  | ⟨0, _⟩ => show win0_3.index t (0 : Fin 2) * 2000 + 1 * a.val = t.val * 2000 + a.val; rw [e5]; omega
  | ⟨1, _⟩ => show win0_3.index t (1 : Fin 2) * 256 + 1 * b.val = b.val; rw [e6]; omega

/-- WHAT POINT t WRITES BACK: rows 2000·t … of the projection of the whole feature array. -/
theorem flushed0 (c : Dev nD) (t : Fin cfg0.N) :
    (dat0 V c).flushed 3 t
      = ((cfg0.win 3).blk t).view.read (Elt Ideal) (biasRelu (mm (xArr0 V c) (wArr0 V c)) (bArr0 V c)) := by
  show (cfg0.win 3).cut (grid0.coords t) ((dat0 V c).after 3 t) = _
  rw [after0_3]
  unfold out0_3
  rw [View.canon_unit_zero off2_zero]
  simp only [View.ld_unit_zero (S := S2000x256) off2_zero, View.ld_unit_zero (S := S256x256) off2_zero,
    View.ld_unit_zero (S := S256) off1_zero]
  rw [proj_payload]
  funext j
  obtain ⟨a, b, rfl⟩ : ∃ (a : Fin 2000) (b : Fin 256), j = ix2 a b := ⟨j 0, j 1, eq_ix2 j⟩
  show biasRelu (mm (xBlk0 V c t) (wBlk0 V c t)) (bBlk0 V c t) (ix2 a b)
    = biasRelu (mm (xArr0 V c) (wArr0 V c)) (bArr0 V c) (((cfg0.win 3).blk t).view.emb (ix2 a b))
  rw [outEmb0 t a b, wBlk0_eq, bBlk0_eq]
  exact biasRelu_rows _ _ _ (rowOf t) (fun a' b' => mm_rows _ _ _ (rowOf t) (fun a'' k => xBlk0_apply V c t a'' k) a' b') a b

/-- An index of the result array is in point t's block iff each coordinate is in the block's range on its axis. -/
theorem mem_blk0 (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v31).slice (win0_3.rect t)).set ↔ _
  rw [View.set_slice_whole, Rect.mem_set_unit]
  exact Iff.rfl

/-- Every entry of the result array is in the block of the point its row falls to: row / 2000. -/
theorem cover0 (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  let t : Fin cfg0.N := ⟨(i 0).val / 2000, by show (i 0).val / 2000 < 25; omega⟩
  obtain ⟨-, -, -, -, -, e5, e6⟩ := index_facts0 t
  have ht : t.val = (i 0).val / 2000 := rfl
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; rw [e5, ht]; omega
  | ⟨1, _⟩ => show win0_3.index t (1 : Fin 2) * 256 ≤ (i 1).val ∧ (i 1).val < win0_3.index t (1 : Fin 2) * 256 + 256; rw [e6]; omega

/-- THE RESULT ARRAY after the region: the projection of the feature array the region was entered with. -/
theorem final0 (c : Dev nD) :
    (dat0 V c).arrAt 3 cfg0.N = biasRelu (mm (xArr0 V c) (wArr0 V c)) (bArr0 V c) :=
  (dat0 V c).arrAt_eq_of_cover 3 _ (fun t _ => flushed0 V c t) cover0

end Region0

end Cert.KernelIdeal.Val

end
-- ==== Proof.ValueMm1.lean ====
/-
  THE SECOND PALLAS CALL, AS A VALUE: the product h ↦ h · w of a 50000 × 256 matrix with a 256 × 256 one.

  The grid has 25 points; point t is handed rows 2000·t … 2000·t + 1999 of h and all of w, and writes back rows
  2000·t … 2000·t + 1999 of the result. Its body stores h_t · w of the block h_t it loaded (a cast of each operand
  to its own shape and the narrowing to bf16 before the product are the identity on extended reals). The product
  acts on h row by row, so what point t writes back IS rows 2000·t … of h · w; the 25 blocks of rows cover the
  array, so the array ends holding h · w for the h and w the region is entered with.
-/
import proofs.«105945_j63513976373392_1_alg».proof.Proof.ValueProj

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense

/-- What the product body stores: the product of the blocks it loaded. -/
theorem mm_payload1 (x0 : Vec Ideal S2000x256 .f32) (x1 : Vec Ideal S256x256 .f32) :
    k1_pay1 (F := Ideal) x0 x1 = mm x0 x1 := by
  unfold k1_pay1
  exact matmul_eq_mm (r := 2000) dot_S2000x256_S256x256_S2000x256_1_0_0_1_n_n dot_S2000x256_S256x256_S2000x256_1_0_0_1_n_n_wf rfl none x0 x1
    (truncf (F := Ideal) .bf16 (shapeCast S2000x256 x0 shapeCasts_S2000x256_S2000x256) bitsLt_bf16_f32)
    (truncf (F := Ideal) .bf16 (shapeCast S256x256 x1 shapeCasts_S256x256_S256x256) bitsLt_bf16_f32)
    (fun i => congrFun (shapeCast_self x0 shapeCasts_S2000x256_S2000x256) i)
    (fun i => congrFun (shapeCast_self x1 shapeCasts_S256x256_S256x256) i)

section Region1

variable (V : (c : Dev nD) → (b : Ref sig .tc) → Buf (Elt Ideal) ((c : Thread nD τ).loc b))

/-- The region's two input arrays as it finds them, and its two input blocks at a grid point, at their literal types. -/
abbrev xArr1 (c : Dev nD) : Vec Ideal S50000x256 .f32 := V c main_v31
abbrev wArr1 (c : Dev nD) : Vec Ideal S256x256 .f32 := V c main_v33
abbrev xBlk1 (c : Dev nD) (t : Fin cfg1.N) : Vec Ideal S2000x256 .f32 := iblk1 V c 0 t
abbrev wBlk1 (c : Dev nD) (t : Fin cfg1.N) : Vec Ideal S256x256 .f32 := iblk1 V c 1 t

/-- The printed index maps over the grid: the operand window and the result window are at block row t, block
    column 0; the weight window never moves. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row a of the operand block at point t is row 2000·t + a of the operand array. -/
theorem xBlk1_apply (c : Dev nD) (t : Fin cfg1.N) (a : Fin 2000) (k : Fin 256) :
    xBlk1 V c t (ix2 a k) = xArr1 V c (ix2 (rowOf t a) k) := by
  obtain ⟨e0, e1, -, -, -, -⟩ := index_facts1 t
  show V c main_v31 (((cfg1.win 0).blk t).view.emb (ix2 a k)) = V c main_v31 (ix2 (rowOf t a) k)
  refine congrArg (V c main_v31) (funext fun ax => Fin.ext ?_)
  match ax with
  | ⟨0, _⟩ => show win1_0.index t (0 : Fin 2) * 2000 + 1 * a.val = t.val * 2000 + a.val; rw [e0]; omega
  | ⟨1, _⟩ => show win1_0.index t (1 : Fin 2) * 256 + 1 * k.val = k.val; rw [e1]; omega

/-- The weight block at any point is the whole weight array. -/
theorem wBlk1_eq (c : Dev nD) (t : Fin cfg1.N) : wBlk1 V c t = wArr1 V c := by
  obtain ⟨-, -, e2, e3, -, -⟩ := index_facts1 t
  funext y
  show V c main_v33 (((cfg1.win 1).blk t).view.emb y) = V c main_v33 y
  refine congrArg (V c main_v33) (funext fun ax => Fin.ext ?_)
  match ax with
  | ⟨0, _⟩ => show win1_1.index t (0 : Fin 2) * 256 + 1 * (y 0).val = (y 0).val; rw [e2]; omega
  | ⟨1, _⟩ => show win1_1.index t (1 : Fin 2) * 256 + 1 * (y 1).val = (y 1).val; rw [e3]; omega

/-- Entry (a, b) of the result block at point t sits at entry (2000·t + a, b) of the result array. -/
theorem outEmb1 (t : Fin cfg1.N) (a : Fin 2000) (b : Fin 256) :
    ((cfg1.win 2).blk t).view.emb (ix2 a b) = ix2 (rowOf t a) b := by
  obtain ⟨-, -, -, -, e4, e5⟩ := index_facts1 t
  funext ax; apply Fin.ext
  match ax with
  | ⟨0, _⟩ => show win1_2.index t (0 : Fin 2) * 2000 + 1 * a.val = t.val * 2000 + a.val; rw [e4]; omega
  | ⟨1, _⟩ => show win1_2.index t (1 : Fin 2) * 256 + 1 * b.val = b.val; rw [e5]; omega

/-- WHAT POINT t WRITES BACK: rows 2000·t … of the product of the whole operand array with the weights. -/
theorem flushed1 (c : Dev nD) (t : Fin cfg1.N) :
    (dat1 V c).flushed 2 t = ((cfg1.win 2).blk t).view.read (Elt Ideal) (mm (xArr1 V c) (wArr1 V c)) := by
  show (cfg1.win 2).cut (grid1.coords t) ((dat1 V c).after 2 t) = _
  rw [after1_2]
  unfold out1_2
  rw [View.canon_unit_zero off2_zero]
  simp only [View.ld_unit_zero (S := S2000x256) off2_zero, View.ld_unit_zero (S := S256x256) off2_zero]
  rw [mm_payload1]
  funext j
  obtain ⟨a, b, rfl⟩ : ∃ (a : Fin 2000) (b : Fin 256), j = ix2 a b := ⟨j 0, j 1, eq_ix2 j⟩
  show mm (xBlk1 V c t) (wBlk1 V c t) (ix2 a b) = mm (xArr1 V c) (wArr1 V c) (((cfg1.win 2).blk t).view.emb (ix2 a b))
  rw [outEmb1 t a b, wBlk1_eq]
  exact mm_rows _ _ _ (rowOf t) (fun a' k => xBlk1_apply V c t a' k) a b

/-- An index of the result array is in point t's block iff each coordinate is in the block's range on its axis. -/
theorem mem_blk1 (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v34).slice (win1_2.rect t)).set ↔ _
  rw [View.set_slice_whole, Rect.mem_set_unit]
  exact Iff.rfl

/-- Every entry of the result array is in the block of the point its row falls to: row / 2000. -/
theorem cover1 (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  let t : Fin cfg1.N := ⟨(i 0).val / 2000, by show (i 0).val / 2000 < 25; omega⟩
  obtain ⟨-, -, -, -, e4, e5⟩ := index_facts1 t
  have ht : t.val = (i 0).val / 2000 := rfl
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; rw [e4, ht]; omega
  | ⟨1, _⟩ => show win1_2.index t (1 : Fin 2) * 256 ≤ (i 1).val ∧ (i 1).val < win1_2.index t (1 : Fin 2) * 256 + 256; rw [e5]; omega

/-- THE RESULT ARRAY after the region: the product of the operand array the region was entered with and the weights. -/
theorem final1 (c : Dev nD) : (dat1 V c).arrAt 2 cfg1.N = mm (xArr1 V c) (wArr1 V c) :=
  (dat1 V c).arrAt_eq_of_cover 2 _ (fun t _ => flushed1 V c t) cover1

end Region1

end Cert.KernelIdeal.Val

end
-- ==== Proof.ValueMm3.lean ====
/-
  THE FOURTH PALLAS CALL, AS A VALUE: the product h ↦ h · w of a 50000 × 256 matrix with a 256 × 256 one.

  The grid has 25 points; point t is handed rows 2000·t … 2000·t + 1999 of h and all of w, and writes back rows
  2000·t … 2000·t + 1999 of the result. Its body stores h_t · w of the block h_t it loaded (a cast of each operand
  to its own shape and the narrowing to bf16 before the product are the identity on extended reals). The product
  acts on h row by row, so what point t writes back IS rows 2000·t … of h · w; the 25 blocks of rows cover the
  array, so the array ends holding h · w for the h and w the region is entered with.
-/
import proofs.«105945_j63513976373392_1_alg».proof.Proof.ValueProj

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense

/-- What the product body stores: the product of the blocks it loaded. -/
theorem mm_payload3 (x0 : Vec Ideal S2000x256 .f32) (x1 : Vec Ideal S256x256 .f32) :
    k3_pay1 (F := Ideal) x0 x1 = mm x0 x1 := by
  unfold k3_pay1
  exact matmul_eq_mm (r := 2000) dot_S2000x256_S256x256_S2000x256_1_0_0_1_n_n dot_S2000x256_S256x256_S2000x256_1_0_0_1_n_n_wf rfl none x0 x1
    (truncf (F := Ideal) .bf16 (shapeCast S2000x256 x0 shapeCasts_S2000x256_S2000x256) bitsLt_bf16_f32)
    (truncf (F := Ideal) .bf16 (shapeCast S256x256 x1 shapeCasts_S256x256_S256x256) bitsLt_bf16_f32)
    (fun i => congrFun (shapeCast_self x0 shapeCasts_S2000x256_S2000x256) i)
    (fun i => congrFun (shapeCast_self x1 shapeCasts_S256x256_S256x256) i)

section Region3

variable (V : (c : Dev nD) → (b : Ref sig .tc) → Buf (Elt Ideal) ((c : Thread nD τ).loc b))

/-- The region's two input arrays as it finds them, and its two input blocks at a grid point, at their literal types. -/
abbrev xArr3 (c : Dev nD) : Vec Ideal S50000x256 .f32 := V c main_v50
abbrev wArr3 (c : Dev nD) : Vec Ideal S256x256 .f32 := V c main_v52
abbrev xBlk3 (c : Dev nD) (t : Fin cfg3.N) : Vec Ideal S2000x256 .f32 := iblk3 V c 0 t
abbrev wBlk3 (c : Dev nD) (t : Fin cfg3.N) : Vec Ideal S256x256 .f32 := iblk3 V c 1 t

/-- The printed index maps over the grid: the operand window and the result window are at block row t, block
    column 0; the weight window never moves. -/
theorem index_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row a of the operand block at point t is row 2000·t + a of the operand array. -/
theorem xBlk3_apply (c : Dev nD) (t : Fin cfg3.N) (a : Fin 2000) (k : Fin 256) :
    xBlk3 V c t (ix2 a k) = xArr3 V c (ix2 (rowOf t a) k) := by
  obtain ⟨e0, e1, -, -, -, -⟩ := index_facts3 t
  show V c main_v50 (((cfg3.win 0).blk t).view.emb (ix2 a k)) = V c main_v50 (ix2 (rowOf t a) k)
  refine congrArg (V c main_v50) (funext fun ax => Fin.ext ?_)
  match ax with
  | ⟨0, _⟩ => show win3_0.index t (0 : Fin 2) * 2000 + 1 * a.val = t.val * 2000 + a.val; rw [e0]; omega
  | ⟨1, _⟩ => show win3_0.index t (1 : Fin 2) * 256 + 1 * k.val = k.val; rw [e1]; omega

/-- The weight block at any point is the whole weight array. -/
theorem wBlk3_eq (c : Dev nD) (t : Fin cfg3.N) : wBlk3 V c t = wArr3 V c := by
  obtain ⟨-, -, e2, e3, -, -⟩ := index_facts3 t
  funext y
  show V c main_v52 (((cfg3.win 1).blk t).view.emb y) = V c main_v52 y
  refine congrArg (V c main_v52) (funext fun ax => Fin.ext ?_)
  match ax with
  | ⟨0, _⟩ => show win3_1.index t (0 : Fin 2) * 256 + 1 * (y 0).val = (y 0).val; rw [e2]; omega
  | ⟨1, _⟩ => show win3_1.index t (1 : Fin 2) * 256 + 1 * (y 1).val = (y 1).val; rw [e3]; omega

/-- Entry (a, b) of the result block at point t sits at entry (2000·t + a, b) of the result array. -/
theorem outEmb3 (t : Fin cfg3.N) (a : Fin 2000) (b : Fin 256) :
    ((cfg3.win 2).blk t).view.emb (ix2 a b) = ix2 (rowOf t a) b := by
  obtain ⟨-, -, -, -, e4, e5⟩ := index_facts3 t
  funext ax; apply Fin.ext
  match ax with
  | ⟨0, _⟩ => show win3_2.index t (0 : Fin 2) * 2000 + 1 * a.val = t.val * 2000 + a.val; rw [e4]; omega
  | ⟨1, _⟩ => show win3_2.index t (1 : Fin 2) * 256 + 1 * b.val = b.val; rw [e5]; omega

/-- WHAT POINT t WRITES BACK: rows 2000·t … of the product of the whole operand array with the weights. -/
theorem flushed3 (c : Dev nD) (t : Fin cfg3.N) :
    (dat3 V c).flushed 2 t = ((cfg3.win 2).blk t).view.read (Elt Ideal) (mm (xArr3 V c) (wArr3 V c)) := by
  show (cfg3.win 2).cut (grid3.coords t) ((dat3 V c).after 2 t) = _
  rw [after3_2]
  unfold out3_2
  rw [View.canon_unit_zero off2_zero]
  simp only [View.ld_unit_zero (S := S2000x256) off2_zero, View.ld_unit_zero (S := S256x256) off2_zero]
  rw [mm_payload3]
  funext j
  obtain ⟨a, b, rfl⟩ : ∃ (a : Fin 2000) (b : Fin 256), j = ix2 a b := ⟨j 0, j 1, eq_ix2 j⟩
  show mm (xBlk3 V c t) (wBlk3 V c t) (ix2 a b) = mm (xArr3 V c) (wArr3 V c) (((cfg3.win 2).blk t).view.emb (ix2 a b))
  rw [outEmb3 t a b, wBlk3_eq]
  exact mm_rows _ _ _ (rowOf t) (fun a' k => xBlk3_apply V c t a' k) a b

/-- An index of the result array is in point t's block iff each coordinate is in the block's range on its axis. -/
theorem mem_blk3 (t : Fin cfg3.N) (i : S50000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v53).slice (win3_2.rect t)).set ↔ _
  rw [View.set_slice_whole, Rect.mem_set_unit]
  exact Iff.rfl

/-- Every entry of the result array is in the block of the point its row falls to: row / 2000. -/
theorem cover3 (i : S50000x256.Idx) : ∃ t : Fin cfg3.N, (cfg3.win 2).flush t = true ∧ i ∈ ((cfg3.win 2).blk t).view.set := by
  have hi0 : (i 0).val < 50000 := (i 0).isLt
  have hi1 : (i 1).val < 256 := (i 1).isLt
  let t : Fin cfg3.N := ⟨(i 0).val / 2000, by show (i 0).val / 2000 < 25; omega⟩
  obtain ⟨-, -, -, -, e4, e5⟩ := index_facts3 t
  have ht : t.val = (i 0).val / 2000 := rfl
  refine ⟨t, flush3_2 t, ?_⟩
  rw [mem_blk3]
  intro a
  match a with
  | ⟨0, _⟩ => show win3_2.index t (0 : Fin 2) * 2000 ≤ (i 0).val ∧ (i 0).val < win3_2.index t (0 : Fin 2) * 2000 + 2000; rw [e4, ht]; omega
  | ⟨1, _⟩ => show win3_2.index t (1 : Fin 2) * 256 ≤ (i 1).val ∧ (i 1).val < win3_2.index t (1 : Fin 2) * 256 + 256; rw [e5]; omega

/-- THE RESULT ARRAY after the region: the product of the operand array the region was entered with and the weights. -/
theorem final3 (c : Dev nD) : (dat3 V c).arrAt 2 cfg3.N = mm (xArr3 V c) (wArr3 V c) :=
  (dat3 V c).arrAt_eq_of_cover 2 _ (fun t _ => flushed3 V c t) cover3

end Region3

end Cert.KernelIdeal.Val

end
-- ==== Proof.ValueBias2.lean ====
/-
  THE THIRD PALLAS CALL, AS A VALUE: the map g ↦ max (g + β) 0 of a 50000 × 256 matrix, β a bias row.

  The grid has 25 points; point t is handed rows 2000·t … 2000·t + 1999 of g and all of β, and writes back rows
  2000·t … 2000·t + 1999 of the result. Its body stores max (g_t + β) 0 of the block g_t it loaded (the casts of
  each operand to its own shape are the identity). The map acts on g row by row, so what point t writes back IS
  rows 2000·t … of the map of the whole g; the 25 blocks of rows cover the array, so the array ends holding
  max (g + β) 0 for the g and β the region is entered with.
-/
import proofs.«105945_j63513976373392_1_alg».proof.Proof.ValueProj

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense

/-- What the bias body stores: the biased, clamped block it loaded. -/
theorem bias_payload2 (x0 : Vec Ideal S2000x256 .f32) (x1 : Vec Ideal S256 .f32) :
    k2_pay1 (F := Ideal) x0 x1 = biasRelu x0 x1 := by
  funext j
  obtain ⟨a, b, rfl⟩ : ∃ (a : Fin 2000) (b : Fin 256), j = ix2 a b := ⟨j 0, j 1, eq_ix2 j⟩
  unfold k2_pay1
  rw [biasRelu_apply]
  show max (shapeCast S2000x256 x0 shapeCasts_S2000x256_S2000x256 (ix2 a b)
      + broadcastTo S2000x256 (shapeCast S1x256 (shapeCast S256 x1 shapeCasts_S256_S256) shapeCasts_S256_S1x256) broadcasts_S1x256_S2000x256 (ix2 a b))
      (Ideal.ofBits .f32 0x00000000#32) = _
  rw [shapeCast_self x0, shapeCast_self x1, bias_rows_apply]

section Region2

variable (V : (c : Dev nD) → (b : Ref sig .tc) → Buf (Elt Ideal) ((c : Thread nD τ).loc b))

/-- The region's two input arrays as it finds them, and its two input blocks at a grid point, at their literal types. -/
abbrev xArr2 (c : Dev nD) : Vec Ideal S50000x256 .f32 := V c main_v47
abbrev bArr2 (c : Dev nD) : Vec Ideal S256 .f32 := V c main_v49
abbrev xBlk2 (c : Dev nD) (t : Fin cfg2.N) : Vec Ideal S2000x256 .f32 := iblk2 V c 0 t
abbrev bBlk2 (c : Dev nD) (t : Fin cfg2.N) : Vec Ideal S256 .f32 := iblk2 V c 1 t

/-- The printed index maps over the grid: the operand window and the result window are at block row t, block
    column 0; the bias window never moves. -/
theorem index_facts2 : ∀ t : Fin cfg2.N,
    win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- Row a of the operand block at point t is row 2000·t + a of the operand array. -/
theorem xBlk2_apply (c : Dev nD) (t : Fin cfg2.N) (a : Fin 2000) (k : Fin 256) :
    xBlk2 V c t (ix2 a k) = xArr2 V c (ix2 (rowOf t a) k) := by
  obtain ⟨e0, e1, -, -, -⟩ := index_facts2 t
  show V c main_v47 (((cfg2.win 0).blk t).view.emb (ix2 a k)) = V c main_v47 (ix2 (rowOf t a) k)
  refine congrArg (V c main_v47) (funext fun ax => Fin.ext ?_)
  match ax with
  | ⟨0, _⟩ => show win2_0.index t (0 : Fin 2) * 2000 + 1 * a.val = t.val * 2000 + a.val; rw [e0]; omega
  | ⟨1, _⟩ => show win2_0.index t (1 : Fin 2) * 256 + 1 * k.val = k.val; rw [e1]; omega

/-- The bias block at any point is the whole bias vector. -/
theorem bBlk2_eq (c : Dev nD) (t : Fin cfg2.N) : bBlk2 V c t = bArr2 V c := by
  obtain ⟨-, -, e2, -, -⟩ := index_facts2 t
  funext y
  show V c main_v49 (((cfg2.win 1).blk t).view.emb y) = V c main_v49 y
  refine congrArg (V c main_v49) (funext fun ax => Fin.ext ?_)
  match ax with
  | ⟨0, _⟩ => show win2_1.index t (0 : Fin 1) * 256 + 1 * (y 0).val = (y 0).val; rw [e2]; omega

/-- Entry (a, b) of the result block at point t sits at entry (2000·t + a, b) of the result array. -/
theorem outEmb2 (t : Fin cfg2.N) (a : Fin 2000) (b : Fin 256) :
    ((cfg2.win 2).blk t).view.emb (ix2 a b) = ix2 (rowOf t a) b := by
  obtain ⟨-, -, -, e3, e4⟩ := index_facts2 t
  funext ax; apply Fin.ext
  match ax with
  | ⟨0, _⟩ => show win2_2.index t (0 : Fin 2) * 2000 + 1 * a.val = t.val * 2000 + a.val; rw [e3]; omega
  | ⟨1, _⟩ => show win2_2.index t (1 : Fin 2) * 256 + 1 * b.val = b.val; rw [e4]; omega

/-- WHAT POINT t WRITES BACK: rows 2000·t … of the biased, clamped whole operand array. -/
theorem flushed2 (c : Dev nD) (t : Fin cfg2.N) :
    (dat2 V c).flushed 2 t = ((cfg2.win 2).blk t).view.read (Elt Ideal) (biasRelu (xArr2 V c) (bArr2 V c)) := by
  show (cfg2.win 2).cut (grid2.coords t) ((dat2 V c).after 2 t) = _
  rw [after2_2]
  unfold out2_2
  rw [View.canon_unit_zero off2_zero]
  simp only [View.ld_unit_zero (S := S2000x256) off2_zero, View.ld_unit_zero (S := S256) off1_zero]
  rw [bias_payload2]
  funext j
  obtain ⟨a, b, rfl⟩ : ∃ (a : Fin 2000) (b : Fin 256), j = ix2 a b := ⟨j 0, j 1, eq_ix2 j⟩
  show biasRelu (xBlk2 V c t) (bBlk2 V c t) (ix2 a b) = biasRelu (xArr2 V c) (bArr2 V c) (((cfg2.win 2).blk t).view.emb (ix2 a b))
  rw [outEmb2 t a b, bBlk2_eq]
  exact biasRelu_rows _ _ _ (rowOf t) (fun a' k => xBlk2_apply V c t a' k) a b

/-- An index of the result array is in point t's block iff each coordinate is in the block's range on its axis. -/
theorem mem_blk2 (t : Fin cfg2.N) (i : S50000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v50).slice (win2_2.rect t)).set ↔ _
  rw [View.set_slice_whole, Rect.mem_set_unit]
  exact Iff.rfl

/-- Every entry of the result array is in the block of the point its row falls to: row / 2000. -/
theorem cover2 (i : S50000x256.Idx) : ∃ t : Fin cfg2.N, (cfg2.win 2).flush t = true ∧ i ∈ ((cfg2.win 2).blk t).view.set := by
  have hi0 : (i 0).val < 50000 := (i 0).isLt
  have hi1 : (i 1).val < 256 := (i 1).isLt
  let t : Fin cfg2.N := ⟨(i 0).val / 2000, by show (i 0).val / 2000 < 25; omega⟩
  obtain ⟨-, -, -, e3, e4⟩ := index_facts2 t
  have ht : t.val = (i 0).val / 2000 := rfl
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; rw [e3, ht]; omega
  | ⟨1, _⟩ => show win2_2.index t (1 : Fin 2) * 256 ≤ (i 1).val ∧ (i 1).val < win2_2.index t (1 : Fin 2) * 256 + 256; rw [e4]; omega

/-- THE RESULT ARRAY after the region: the biased, clamped operand array the region was entered with. -/
theorem final2 (c : Dev nD) : (dat2 V c).arrAt 2 cfg2.N = biasRelu (xArr2 V c) (bArr2 V c) :=
  (dat2 V c).arrAt_eq_of_cover 2 _ (fun t _ => flushed2 V c t) cover2

end Region2

end Cert.KernelIdeal.Val

end
-- ==== Proof.ValueBias4.lean ====
/-
  THE FIFTH PALLAS CALL, AS A VALUE: the map g ↦ max (g + β) 0 of a 50000 × 256 matrix, β a bias row.

  The grid has 25 points; point t is handed rows 2000·t … 2000·t + 1999 of g and all of β, and writes back rows
  2000·t … 2000·t + 1999 of the result. Its body stores max (g_t + β) 0 of the block g_t it loaded (the casts of
  each operand to its own shape are the identity). The map acts on g row by row, so what point t writes back IS
  rows 2000·t … of the map of the whole g; the 25 blocks of rows cover the array, so the array ends holding
  max (g + β) 0 for the g and β the region is entered with.
-/
import proofs.«105945_j63513976373392_1_alg».proof.Proof.ValueProj

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense

/-- What the bias body stores: the biased, clamped block it loaded. -/
theorem bias_payload4 (x0 : Vec Ideal S2000x256 .f32) (x1 : Vec Ideal S256 .f32) :
    k4_pay1 (F := Ideal) x0 x1 = biasRelu x0 x1 := by
  funext j
  obtain ⟨a, b, rfl⟩ : ∃ (a : Fin 2000) (b : Fin 256), j = ix2 a b := ⟨j 0, j 1, eq_ix2 j⟩
  unfold k4_pay1
  rw [biasRelu_apply]
  show max (shapeCast S2000x256 x0 shapeCasts_S2000x256_S2000x256 (ix2 a b)
      + broadcastTo S2000x256 (shapeCast S1x256 (shapeCast S256 x1 shapeCasts_S256_S256) shapeCasts_S256_S1x256) broadcasts_S1x256_S2000x256 (ix2 a b))
      (Ideal.ofBits .f32 0x00000000#32) = _
  rw [shapeCast_self x0, shapeCast_self x1, bias_rows_apply]

section Region4

variable (V : (c : Dev nD) → (b : Ref sig .tc) → Buf (Elt Ideal) ((c : Thread nD τ).loc b))

/-- The region's two input arrays as it finds them, and its two input blocks at a grid point, at their literal types. -/
abbrev xArr4 (c : Dev nD) : Vec Ideal S50000x256 .f32 := V c main_v66
abbrev bArr4 (c : Dev nD) : Vec Ideal S256 .f32 := V c main_v68
abbrev xBlk4 (c : Dev nD) (t : Fin cfg4.N) : Vec Ideal S2000x256 .f32 := iblk4 V c 0 t
abbrev bBlk4 (c : Dev nD) (t : Fin cfg4.N) : Vec Ideal S256 .f32 := iblk4 V c 1 t

/-- The printed index maps over the grid: the operand window and the result window are at block row t, block
    column 0; the bias window never moves. -/
theorem index_facts4 : ∀ t : Fin cfg4.N,
    win4_0.index t (0 : Fin 2) = t.val ∧ win4_0.index t (1 : Fin 2) = 0
    ∧ win4_1.index t (0 : Fin 1) = 0
    ∧ win4_2.index t (0 : Fin 2) = t.val ∧ win4_2.index t (1 : Fin 2) = 0 :=
  (by decide +kernel : ∀ t : Fin grid4.N, _)

/-- Row a of the operand block at point t is row 2000·t + a of the operand array. -/
theorem xBlk4_apply (c : Dev nD) (t : Fin cfg4.N) (a : Fin 2000) (k : Fin 256) :
    xBlk4 V c t (ix2 a k) = xArr4 V c (ix2 (rowOf t a) k) := by
  obtain ⟨e0, e1, -, -, -⟩ := index_facts4 t
  show V c main_v66 (((cfg4.win 0).blk t).view.emb (ix2 a k)) = V c main_v66 (ix2 (rowOf t a) k)
  refine congrArg (V c main_v66) (funext fun ax => Fin.ext ?_)
  match ax with
  | ⟨0, _⟩ => show win4_0.index t (0 : Fin 2) * 2000 + 1 * a.val = t.val * 2000 + a.val; rw [e0]; omega
  | ⟨1, _⟩ => show win4_0.index t (1 : Fin 2) * 256 + 1 * k.val = k.val; rw [e1]; omega

/-- The bias block at any point is the whole bias vector. -/
theorem bBlk4_eq (c : Dev nD) (t : Fin cfg4.N) : bBlk4 V c t = bArr4 V c := by
  obtain ⟨-, -, e2, -, -⟩ := index_facts4 t
  funext y
  show V c main_v68 (((cfg4.win 1).blk t).view.emb y) = V c main_v68 y
  refine congrArg (V c main_v68) (funext fun ax => Fin.ext ?_)
  match ax with
  | ⟨0, _⟩ => show win4_1.index t (0 : Fin 1) * 256 + 1 * (y 0).val = (y 0).val; rw [e2]; omega

/-- Entry (a, b) of the result block at point t sits at entry (2000·t + a, b) of the result array. -/
theorem outEmb4 (t : Fin cfg4.N) (a : Fin 2000) (b : Fin 256) :
    ((cfg4.win 2).blk t).view.emb (ix2 a b) = ix2 (rowOf t a) b := by
  obtain ⟨-, -, -, e3, e4⟩ := index_facts4 t
  funext ax; apply Fin.ext
  match ax with
  | ⟨0, _⟩ => show win4_2.index t (0 : Fin 2) * 2000 + 1 * a.val = t.val * 2000 + a.val; rw [e3]; omega
  | ⟨1, _⟩ => show win4_2.index t (1 : Fin 2) * 256 + 1 * b.val = b.val; rw [e4]; omega

/-- WHAT POINT t WRITES BACK: rows 2000·t … of the biased, clamped whole operand array. -/
theorem flushed4 (c : Dev nD) (t : Fin cfg4.N) :
    (dat4 V c).flushed 2 t = ((cfg4.win 2).blk t).view.read (Elt Ideal) (biasRelu (xArr4 V c) (bArr4 V c)) := by
  show (cfg4.win 2).cut (grid4.coords t) ((dat4 V c).after 2 t) = _
  rw [after4_2]
  unfold out4_2
  rw [View.canon_unit_zero off2_zero]
  simp only [View.ld_unit_zero (S := S2000x256) off2_zero, View.ld_unit_zero (S := S256) off1_zero]
  rw [bias_payload4]
  funext j
  obtain ⟨a, b, rfl⟩ : ∃ (a : Fin 2000) (b : Fin 256), j = ix2 a b := ⟨j 0, j 1, eq_ix2 j⟩
  show biasRelu (xBlk4 V c t) (bBlk4 V c t) (ix2 a b) = biasRelu (xArr4 V c) (bArr4 V c) (((cfg4.win 2).blk t).view.emb (ix2 a b))
  rw [outEmb4 t a b, bBlk4_eq]
  exact biasRelu_rows _ _ _ (rowOf t) (fun a' k => xBlk4_apply V c t a' k) a b

/-- An index of the result array is in point t's block iff each coordinate is in the block's range on its axis. -/
theorem mem_blk4 (t : Fin cfg4.N) (i : S50000x256.Idx) :
    i ∈ ((cfg4.win 2).blk t).view.set ↔ ∀ a : Fin 2, win4_2.index t a * S2000x256.size a ≤ (i a).val ∧ (i a).val < win4_2.index t a * S2000x256.size a + S2000x256.size a := by
  show i ∈ ((View.whole main_v69).slice (win4_2.rect t)).set ↔ _
  rw [View.set_slice_whole, Rect.mem_set_unit]
  exact Iff.rfl

/-- Every entry of the result array is in the block of the point its row falls to: row / 2000. -/
theorem cover4 (i : S50000x256.Idx) : ∃ t : Fin cfg4.N, (cfg4.win 2).flush t = true ∧ i ∈ ((cfg4.win 2).blk t).view.set := by
  have hi0 : (i 0).val < 50000 := (i 0).isLt
  have hi1 : (i 1).val < 256 := (i 1).isLt
  let t : Fin cfg4.N := ⟨(i 0).val / 2000, by show (i 0).val / 2000 < 25; omega⟩
  obtain ⟨-, -, -, e3, e4⟩ := index_facts4 t
  have ht : t.val = (i 0).val / 2000 := rfl
  refine ⟨t, flush4_2 t, ?_⟩
  rw [mem_blk4]
  intro a
  match a with
  | ⟨0, _⟩ => show win4_2.index t (0 : Fin 2) * 2000 ≤ (i 0).val ∧ (i 0).val < win4_2.index t (0 : Fin 2) * 2000 + 2000; rw [e3, ht]; omega
  | ⟨1, _⟩ => show win4_2.index t (1 : Fin 2) * 256 ≤ (i 1).val ∧ (i 1).val < win4_2.index t (1 : Fin 2) * 256 + 256; rw [e4]; omega

/-- THE RESULT ARRAY after the region: the biased, clamped operand array the region was entered with. -/
theorem final4 (c : Dev nD) : (dat4 V c).arrAt 2 cfg4.N = biasRelu (xArr4 V c) (bArr4 V c) :=
  (dat4 V c).arrAt_eq_of_cover 2 _ (fun t _ => flushed4 V c t) cover4

end Region4

end Cert.KernelIdeal.Val

end
-- ==== Proof.RefValue.lean ====
/-
  THE REFERENCE'S STAGES, READ AS THE NETWORK'S STEPS.

  The reference computes, stage by stage (each stage a function of the arguments; the stages are those of the
  reference's run read back one operation at a time):

    p  = max (x · w + β) 0                                   the input projection
    h₁ = p · W₁          g₁ = A(h₁)      q = max (g₁ + β₁) 0       the first layer
    h₂ = q · W₂          g₂ = A(h₂)      out = max (g₂ + β₂) 0     the second layer

  where A gathers rows along the edges, scales each by the edge's normalisation and scatter-adds them at the
  edges' targets. This module reads the dense stages — the host's `dot_general`, and its bias row broadcast, added
  and clamped — as the functions `mm` and `biasRelu` of Spec.lean, and names the two aggregation stages as
  functions `agg1`, `agg2` of the matrix they aggregate (the edge list, hence the indices and the normalisation,
  fixed).
-/
import proofs.«105945_j63513976373392_1_alg».proof.Proof.RefRead
import proofs.«105945_j63513976373392_1_alg».proof.Proof.Spec

noncomputable section

namespace Cert.ReferenceIdeal.RefValue

open Idealize.ShloMosaic Idealize.ShloMosaic.ValueIdx
open Cert.ReferenceIdeal Cert.ReferenceIdeal.Gen Cert.ReferenceIdeal.ReadP Cert.Dense

/-- The host's product of a 50000 × 256 matrix with a 256 × 256 one is `mm`. -/
theorem hostDot_eq (h : FVec Ideal S50000x256 .f32) (w : FVec Ideal S256x256 .f32) :
    Host.dotGeneral (F := Ideal) dot_S50000x256_S256x256_S50000x256_1_0_0_1_n_n none h w = mm h w :=
  dotGeneral_eq_mm (r := 50000) _ dot_S50000x256_S256x256_S50000x256_1_0_0_1_n_n_wf rfl _ _ h w

/-- The host's bias step — the bias row broadcast to every row, added, and the maximum with the zero matrix — is `biasRelu`. -/
theorem hostBiasRelu_eq (g : FVec Ideal S50000x256 .f32) (β : FVec Ideal S256 .f32) :
    maximumf (addf g (broadcastInDim S50000x256 ![0, 1] bcast_S1x256_S50000x256_0_1 (broadcastInDim S1x256 ![1] bcast_S256_S1x256_1 β)))
      (broadcastInDim S50000x256 ![] bcast_S_S50000x256 (constant (F := Ideal) S_ .f32 0x00000000#32)) = biasRelu g β := by
  funext j
  obtain ⟨a, b, rfl⟩ : ∃ (a : Fin 50000) (b : Fin 256), j = ix2 a b := ⟨j 0, j 1, eq_ix2 j⟩
  rw [biasRelu_apply, maximumf_apply, addf_apply,
    bias_host_apply (r := 50000) β ![1] rfl bcast_S256_S1x256_1 ![0, 1] rfl bcast_S1x256_S50000x256_0_1 a b]
  rfl

variable (x : FVec Ideal S50000x256 .f32) (e : IVec S2x800000 32) (w : FVec Ideal S256x256 .f32) (β : FVec Ideal S256 .f32)
  (cw : FVec Ideal S2x256x256 .f32) (cb : FVec Ideal S2x256 .f32)

/-- The input projection. -/
theorem proj_stage : val_main_v8 (F := Ideal) x w β = biasRelu (mm x w) β := by
  unfold val_main_v8 val_main_v7 val_main_v6 val_main_v5 val_main_v4 val_main_call0_v0 val_main_call0_cst
  rw [hostDot_eq]
  exact hostBiasRelu_eq _ _

/-- The first layer's product. -/
theorem mm_stage1 : val_main_v13 (F := Ideal) x w β cw = mm (val_main_v8 (F := Ideal) x w β) (val_main_v10 (F := Ideal) cw) := by
  unfold val_main_v13
  exact hostDot_eq _ _

/-- The first layer's aggregation along the edges, as a function of the matrix it aggregates. -/
def agg1 (h : FVec Ideal S50000x256 .f32) : FVec Ideal S50000x256 .f32 :=
  Host.scatterAdd scatter_S50000x256_S850000x1_S850000x256_1_0_0_1 (val_main_v51 (F := Ideal)) (val_main_v52 (F := Ideal) e)
    (mulf (Host.gather gather_S50000x256_S850000x1_S850000x256_1_0_n_n_0_1_1256 h (val_main_v46 (F := Ideal) e)) (val_main_v49 (F := Ideal) e))

theorem agg_stage1 : val_main_v53 (F := Ideal) x e w β cw = agg1 e (val_main_v13 (F := Ideal) x w β cw) := rfl

/-- The first layer's bias and clamp. -/
theorem bias_stage1 : val_main_v57 (F := Ideal) x e w β cw cb
    = biasRelu (val_main_v53 (F := Ideal) x e w β cw) (val_main_v12 (F := Ideal) cb) := by
  unfold val_main_v57 val_main_v56 val_main_v55 val_main_v54 val_main_call2_v0 val_main_call2_cst
  exact hostBiasRelu_eq _ _

/-- The second layer's product. -/
theorem mm_stage2 : val_main_v62 (F := Ideal) x e w β cw cb
    = mm (val_main_v57 (F := Ideal) x e w β cw cb) (val_main_v59 (F := Ideal) cw) := by
  unfold val_main_v62
  exact hostDot_eq _ _

/-- The second layer's aggregation along the edges, as a function of the matrix it aggregates. -/
def agg2 (h : FVec Ideal S50000x256 .f32) : FVec Ideal S50000x256 .f32 :=
  Host.scatterAdd scatter_S50000x256_S850000x1_S850000x256_1_0_0_1 (val_main_v100 (F := Ideal)) (val_main_v101 (F := Ideal) e)
    (mulf (Host.gather gather_S50000x256_S850000x1_S850000x256_1_0_n_n_0_1_1256 h (val_main_v95 (F := Ideal) e)) (val_main_v98 (F := Ideal) e))

theorem agg_stage2 : val_main_v102 (F := Ideal) x e w β cw cb = agg2 e (val_main_v62 (F := Ideal) x e w β cw cb) := rfl

/-- The second layer's bias and clamp: the result. -/
theorem bias_stage2 : val_main_v106 (F := Ideal) x e w β cw cb
    = biasRelu (val_main_v102 (F := Ideal) x e w β cw cb) (val_main_v61 (F := Ideal) cb) := by
  unfold val_main_v106 val_main_v105 val_main_v104 val_main_v103 val_main_call4_v0 val_main_call4_cst
  exact hostBiasRelu_eq _ _

/-! ## The edge stages as functions of what they are built from

The reference computes the inverse root of the degree, the per-edge normalisation and each aggregation from earlier
stages by a few operations. Written as functions of those earlier stages, they are what the kernel program's host
stretches compute from the same buffers. (The reference computes the indices and the normalisation once per layer;
the two copies are named apart here, stage by stage.) -/

/-- `where (mask, a, c)`: a where the mask is set, the scalar c elsewhere. -/
def whereOf (A : IVec S50000 1) (B : FVec Ideal S50000 .f32) (C : FVec Ideal S_ .f32) : FVec Ideal S50000 .f32 :=
  select A B (broadcastInDim S50000 ![] bcast_S_S50000 (id C))

/-- An index array with its negative entries moved up by the number of nodes. -/
def wrapIdx (S : IVec S850000 32) : IVec S850000 32 :=
  select (cmpi .slt S (broadcastInDim S850000 ![] bcast_S_S850000 (constantI S_ 32 0#32)))
    (addi S (broadcastInDim S850000 ![] bcast_S_S850000 (constantI S_ 32 50000#32))) S

/-- The per-edge normalisation from the nodes' inverse roots D and the two index arrays: D at the one end times D at the other. -/
def normOf (D : FVec Ideal S50000 .f32) (S T : IVec S850000 32) : FVec Ideal S850000 .f32 :=
  mulf (Host.gather gather_S50000_S850000x1_S850000_n_0_n_n_0_1_1 D (broadcastInDim S850000x1 ![0] bcast_S850000_S850000x1_0 (wrapIdx S)))
    (Host.gather gather_S50000_S850000x1_S850000_n_0_n_n_0_1_1 D (broadcastInDim S850000x1 ![0] bcast_S850000_S850000x1_0 (wrapIdx T)))

/-- The aggregation of H along the edges: rows gathered at S, scaled by N, scatter-added at T into zeros. -/
def aggOf (T S : IVec S850000 32) (N : FVec Ideal S850000 .f32) (H : FVec Ideal S50000x256 .f32) : FVec Ideal S50000x256 .f32 :=
  Host.scatterAdd scatter_S50000x256_S850000x1_S850000x256_1_0_0_1
    (broadcastInDim S50000x256 ![] bcast_S_S50000x256 (constant (F := Ideal) S_ .f32 0x00000000#32))
    (broadcastInDim S850000x1 ![0] bcast_S850000_S850000x1_0 T)
    (mulf (Host.gather gather_S50000x256_S850000x1_S850000x256_1_0_n_n_0_1_1256 H (broadcastInDim S850000x1 ![0] bcast_S850000_S850000x1_0 (wrapIdx S)))
      (broadcastInDim S850000x256 ![0, 1] bcast_S850000x1_S850000x256_0_1 (broadcastInDim S850000x1 ![0] bcast_S850000_S850000x1_0 N)))

theorem dinv1_eq : val_main_v25 (F := Ideal) e
    = whereOf (val_main_v22 (F := Ideal) e) (val_main_v24 (F := Ideal) e) (val_main_cst_3 (F := Ideal)) := rfl
theorem dinv2_eq : val_main_v74 (F := Ideal) e
    = whereOf (val_main_v71 (F := Ideal) e) (val_main_v73 (F := Ideal) e) (val_main_cst_14 (F := Ideal)) := rfl
theorem norm1_eq : val_main_v40 (F := Ideal) e
    = normOf (val_main_v25 (F := Ideal) e) (val_main_v15 (F := Ideal) e) (val_main_v16 (F := Ideal) e) := rfl
theorem norm2_eq : val_main_v89 (F := Ideal) e
    = normOf (val_main_v74 (F := Ideal) e) (val_main_v64 (F := Ideal) e) (val_main_v65 (F := Ideal) e) := rfl
theorem agg1_eq (h : FVec Ideal S50000x256 .f32) : agg1 e h
    = aggOf (val_main_v16 (F := Ideal) e) (val_main_v15 (F := Ideal) e) (val_main_v40 (F := Ideal) e) h := rfl
theorem agg2_eq (h : FVec Ideal S50000x256 .f32) : agg2 e h
    = aggOf (val_main_v65 (F := Ideal) e) (val_main_v64 (F := Ideal) e) (val_main_v89 (F := Ideal) e) h := rfl

end Cert.ReferenceIdeal.RefValue

end
-- ==== Proof.KernelChain.lean ====
/-
  THE KERNEL'S RESULT, BOUNDARY BY BOUNDARY.

  @main of the kernel program alternates stretches of host operations with five pallas_calls. Its buffers' contents
  at each boundary are a fold from the launch memory: a stretch applies its operations, a region replaces its
  output array by what its write-backs leave. Walking that fold forwards, each pallas_call's result array is one
  stage of the reference's computation of the SAME launch arguments:

    after call 1   p  = max (x · w + β) 0
    after call 2   h₁ = p · W₁                (W₁ sliced from the stacked layer weights by a host stretch)
    after call 3   q  = max (A(h₁) + β₁) 0    (the aggregation A(h₁) computed by a host stretch before the call)
    after call 4   h₂ = q · W₂
    after call 5   out = max (A(h₂) + β₂) 0

  The edge indices and the normalisation are computed once, by the stretch before the first call, and are not
  written again: every later stretch finds them as they were (no operation of the stretches in between, and no
  region, writes them), and they are the reference's own index and normalisation stages of the edge list.
-/
import proofs.«105945_j63513976373392_1_alg».proof.Proof.KernelIdealRun
import proofs.«105945_j63513976373392_1_alg».proof.Proof.ValueMm1
import proofs.«105945_j63513976373392_1_alg».proof.Proof.ValueMm3
import proofs.«105945_j63513976373392_1_alg».proof.Proof.ValueBias2
import proofs.«105945_j63513976373392_1_alg».proof.Proof.ValueBias4
import proofs.«105945_j63513976373392_1_alg».proof.Proof.RefValue

set_option maxRecDepth 16384

noncomputable section

namespace Cert.KernelIdeal.Chain

open Idealize.ShloMosaic Idealize.ShloMosaic.TcCoe Idealize.SL.Sem
open Cert.KernelIdeal Cert.KernelIdeal.Gen Cert.KernelIdeal.Val Cert.Dense
open Cert.ReferenceIdeal.ReadP Cert.ReferenceIdeal.RefValue

variable (m : (ℓ : Loc nD τ sig) → Buf (Elt Ideal) ℓ) (ρ : Dev nD → PrngReg)

/-! ## The launch arguments, at their literal types -/

abbrev aX (c : Dev nD) : FVec Ideal S50000x256 .f32 := m ((c : Thread nD τ).loc main_arg0)
abbrev aE (c : Dev nD) : IVec S2x800000 32 := m ((c : Thread nD τ).loc main_arg1)
abbrev aW (c : Dev nD) : FVec Ideal S256x256 .f32 := m ((c : Thread nD τ).loc main_arg2)
abbrev aB (c : Dev nD) : FVec Ideal S256 .f32 := m ((c : Thread nD τ).loc main_arg3)
abbrev aCW (c : Dev nD) : FVec Ideal S2x256x256 .f32 := m ((c : Thread nD τ).loc main_arg4)
abbrev aCB (c : Dev nD) : FVec Ideal S2x256 .f32 := m ((c : Thread nD τ).loc main_arg5)

/-! ## A buffer nothing writes keeps its contents across boundaries -/

/-- No operation of a literal stretch writes a literal buffer: the stretch's result buffers, one by one, are other
    references. -/
local macro "no_write " ops:ident : tactic => `(tactic|
  exact List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- From the launch to the first call's entry: three stretches. -/
theorem carry_3_0 (c : Dev nD) (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes) :
    W3 m ρ c (Proc.devRef .tc b) = m ((c : Thread nD τ).loc b) :=
  (StableHlo.after_of_forall_not_mem _ _ h2).trans
    ((StableHlo.after_of_forall_not_mem _ _ h1).trans (StableHlo.after_of_forall_not_mem _ _ h0))

/-- Across the first call: a buffer that is none of its arrays. -/
theorem carry_4_3 (c : Dev nD) (b : Ref sig .tc) (n0 : ∀ w, Pipeline.arrRef spec0 w ≠ b) :
    W4 m ρ c (Proc.devRef .tc b) = W3 m ρ c (Proc.devRef .tc b) := W4_of_ne m ρ c b n0

/-- From the first call's exit to the second call's exit. -/
theorem carry_6_4 (c : Dev nD) (b : Ref sig .tc)
    (h1 : ∀ op ∈ (hostOps1 : List (HloOp τ sig (Elt Ideal))), Proc.devRef .tc b ∉ op.writes)
    (n1 : ∀ w, Pipeline.arrRef spec1 w ≠ b) :
    W6 m ρ c (Proc.devRef .tc b) = W4 m ρ c (Proc.devRef .tc b) :=
  (W6_of_ne m ρ c b n1).trans (StableHlo.after_of_forall_not_mem _ _ h1)

/-- From the second call's exit to the third call's exit. -/
theorem carry_8_6 (c : Dev nD) (b : Ref sig .tc)
    (h2 : ∀ op ∈ (hostOps2 : List (HloOp τ sig (Elt Ideal))), Proc.devRef .tc b ∉ op.writes)
    (n2 : ∀ w, Pipeline.arrRef spec2 w ≠ b) :
    W8 m ρ c (Proc.devRef .tc b) = W6 m ρ c (Proc.devRef .tc b) :=
  (W8_of_ne m ρ c b n2).trans (StableHlo.after_of_forall_not_mem _ _ h2)

/-- From the third call's exit to the fourth call's exit. -/
theorem carry_10_8 (c : Dev nD) (b : Ref sig .tc)
    (h3 : ∀ op ∈ (hostOps3 : List (HloOp τ sig (Elt Ideal))), Proc.devRef .tc b ∉ op.writes)
    (n3 : ∀ w, Pipeline.arrRef spec3 w ≠ b) :
    W10 m ρ c (Proc.devRef .tc b) = W8 m ρ c (Proc.devRef .tc b) :=
  (W10_of_ne m ρ c b n3).trans (StableHlo.after_of_forall_not_mem _ _ h3)

/-! ## The arguments where the later stretches read them -/

theorem x_at3 (c : Dev nD) : W3 m ρ c (Proc.devRef .tc main_arg0) = aX m c :=
  carry_3_0 m ρ c main_arg0 (by no_write hostOps0) (by no_write hostOps0_1) (by no_write hostOps0_2)
theorem w_at3 (c : Dev nD) : W3 m ρ c (Proc.devRef .tc main_arg2) = aW m c :=
  carry_3_0 m ρ c main_arg2 (by no_write hostOps0) (by no_write hostOps0_1) (by no_write hostOps0_2)
theorem b_at3 (c : Dev nD) : W3 m ρ c (Proc.devRef .tc main_arg3) = aB m c :=
  carry_3_0 m ρ c main_arg3 (by no_write hostOps0) (by no_write hostOps0_1) (by no_write hostOps0_2)
theorem cw_at3 (c : Dev nD) : W3 m ρ c (Proc.devRef .tc main_arg4) = aCW m c :=
  carry_3_0 m ρ c main_arg4 (by no_write hostOps0) (by no_write hostOps0_1) (by no_write hostOps0_2)
theorem cb_at3 (c : Dev nD) : W3 m ρ c (Proc.devRef .tc main_arg5) = aCB m c :=
  carry_3_0 m ρ c main_arg5 (by no_write hostOps0) (by no_write hostOps0_1) (by no_write hostOps0_2)

theorem cw_at4 (c : Dev nD) : W4 m ρ c (Proc.devRef .tc main_arg4) = aCW m c :=
  (carry_4_3 m ρ c main_arg4 (by decide)).trans (cw_at3 m ρ c)
theorem cw_at8 (c : Dev nD) : W8 m ρ c (Proc.devRef .tc main_arg4) = aCW m c :=
  (carry_8_6 m ρ c main_arg4 (by no_write hostOps2) (by decide)).trans
    ((carry_6_4 m ρ c main_arg4 (by no_write hostOps1) (by decide)).trans (cw_at4 m ρ c))
theorem cb_at6 (c : Dev nD) : W6 m ρ c (Proc.devRef .tc main_arg5) = aCB m c :=
  (carry_6_4 m ρ c main_arg5 (by no_write hostOps1) (by decide)).trans
    ((carry_4_3 m ρ c main_arg5 (by decide)).trans (cb_at3 m ρ c))
theorem cb_at10 (c : Dev nD) : W10 m ρ c (Proc.devRef .tc main_arg5) = aCB m c :=
  (carry_10_8 m ρ c main_arg5 (by no_write hostOps3) (by decide)).trans
    ((carry_8_6 m ρ c main_arg5 (by no_write hostOps2) (by decide)).trans (cb_at6 m ρ c))

/-! ## The edge indices and the normalisation: computed once, the reference's own stages of the edge list

The stretch before the first call builds the index arrays, the degree, its inverse root and the normalisation. Read
over ANY contents `V` of the buffers it starts from, each of its later parts is one of the small functions of
Proof/RefValue.lean (`whereOf`, `normOf`) of the buffers it reads; so is the aggregation a later stretch computes
(`aggOf`). At the contents the run really has, what those buffers hold are the reference's stages of the edge list —
of its first layer's copy of them and, as well, of its second layer's copy. -/

/-- The `where` that guards the inverse root, over any contents of the buffers it reads. -/
theorem where_core (V : Valuation τ sig (Elt Ideal)) :
    StableHlo.after hostOps0_1 V (Proc.devRef .tc main_v15)
      = whereOf (V (Proc.devRef .tc main_v12)) (V (Proc.devRef .tc main_v14)) (V (Proc.devRef .tc main_cst_3)) := by
  dsimp only [hostOps0_1]
  after_results_simp
  rfl

/-- The normalisation, over any contents of the buffers it reads. -/
theorem norm_core (V : Valuation τ sig (Elt Ideal)) :
    StableHlo.after hostOps0_2 V (Proc.devRef .tc main_v30)
      = normOf (V (Proc.devRef .tc main_v15)) (V (Proc.devRef .tc main_v5)) (V (Proc.devRef .tc main_v6)) := by
  dsimp only [hostOps0_2]
  after_results
  rfl

/-- The first layer's aggregation, over any contents of the buffers it reads. -/
theorem agg_core2 (V : Valuation τ sig (Elt Ideal)) :
    StableHlo.after hostOps2 V (Proc.devRef .tc main_v47)
      = aggOf (V (Proc.devRef .tc main_v6)) (V (Proc.devRef .tc main_v5)) (V (Proc.devRef .tc main_v30)) (V (Proc.devRef .tc main_v34)) := by
  dsimp only [hostOps2]
  after_results
  rfl

/-- The second layer's aggregation, over any contents of the buffers it reads. -/
theorem agg_core4 (V : Valuation τ sig (Elt Ideal)) :
    StableHlo.after hostOps4 V (Proc.devRef .tc main_v66)
      = aggOf (V (Proc.devRef .tc main_v6)) (V (Proc.devRef .tc main_v5)) (V (Proc.devRef .tc main_v30)) (V (Proc.devRef .tc main_v53)) := by
  dsimp only [hostOps4]
  after_results
  rfl

/-! ### Right after the stretch that builds them -/

/-- The gather side's indices (the edges' sources, then every node once). -/
theorem src_at1 (c : Dev nD) : W1 m ρ c (Proc.devRef .tc main_v5) = val_main_v15 (F := Ideal) (aE m c) := by
  show StableHlo.after hostOps0 (W0 m ρ c) (Proc.devRef .tc main_v5) = _
  dsimp only [hostOps0]
  after_results
  rfl

/-- The scatter side's indices (the edges' targets, then every node once). -/
theorem dst_at1 (c : Dev nD) : W1 m ρ c (Proc.devRef .tc main_v6) = val_main_v16 (F := Ideal) (aE m c) := by
  show StableHlo.after hostOps0 (W0 m ρ c) (Proc.devRef .tc main_v6) = _
  dsimp only [hostOps0]
  after_results
  rfl

/-- Which nodes have positive degree (the degree: a one scatter-added per index of the scatter side). -/
theorem degpos_at1 (c : Dev nD) : W1 m ρ c (Proc.devRef .tc main_v12) = val_main_v22 (F := Ideal) (aE m c) := by
  show StableHlo.after hostOps0 (W0 m ρ c) (Proc.devRef .tc main_v12) = _
  dsimp only [hostOps0]
  after_results
  rfl

/-- The degree to the power −1/2. -/
theorem degpow_at1 (c : Dev nD) : W1 m ρ c (Proc.devRef .tc main_v14) = val_main_v24 (F := Ideal) (aE m c) := by
  show StableHlo.after hostOps0 (W0 m ρ c) (Proc.devRef .tc main_v14) = _
  dsimp only [hostOps0]
  after_results
  rfl

/-- The zero that stands in for the power where the degree is not positive. -/
theorem zero_at1 (c : Dev nD) : W1 m ρ c (Proc.devRef .tc main_cst_3) = val_main_cst_3 (F := Ideal) := by
  show StableHlo.after hostOps0 (W0 m ρ c) (Proc.devRef .tc main_cst_3) = _
  dsimp only [hostOps0]
  after_results
  rfl

/-! The same five buffers are also the reference's second copy of these stages. -/

theorem src2_at1 (c : Dev nD) : W1 m ρ c (Proc.devRef .tc main_v5) = val_main_v64 (F := Ideal) (aE m c) := by
  show StableHlo.after hostOps0 (W0 m ρ c) (Proc.devRef .tc main_v5) = _
  dsimp only [hostOps0]
  after_results
  rfl

theorem dst2_at1 (c : Dev nD) : W1 m ρ c (Proc.devRef .tc main_v6) = val_main_v65 (F := Ideal) (aE m c) := by
  show StableHlo.after hostOps0 (W0 m ρ c) (Proc.devRef .tc main_v6) = _
  dsimp only [hostOps0]
  after_results
  rfl

theorem degpos2_at1 (c : Dev nD) : W1 m ρ c (Proc.devRef .tc main_v12) = val_main_v71 (F := Ideal) (aE m c) := by
  show StableHlo.after hostOps0 (W0 m ρ c) (Proc.devRef .tc main_v12) = _
  dsimp only [hostOps0]
  after_results
  rfl

theorem degpow2_at1 (c : Dev nD) : W1 m ρ c (Proc.devRef .tc main_v14) = val_main_v73 (F := Ideal) (aE m c) := by
  show StableHlo.after hostOps0 (W0 m ρ c) (Proc.devRef .tc main_v14) = _
  dsimp only [hostOps0]
  after_results
  rfl

theorem zero2_at1 (c : Dev nD) : W1 m ρ c (Proc.devRef .tc main_cst_3) = val_main_cst_14 (F := Ideal) := by
  show StableHlo.after hostOps0 (W0 m ρ c) (Proc.devRef .tc main_cst_3) = _
  dsimp only [hostOps0]
  after_results
  rfl

/-! ### After the `where`, and after the stretch that ends at the first call -/

/-- The inverse square root of the degree, zero where the degree is not positive. -/
theorem dinv_at2 (c : Dev nD) : W2 m ρ c (Proc.devRef .tc main_v15) = val_main_v25 (F := Ideal) (aE m c) := by
  refine (where_core (W1 m ρ c)).trans ?_
  rw [degpos_at1, degpow_at1, zero_at1]
  exact (dinv1_eq _).symm
theorem dinv2_at2 (c : Dev nD) : W2 m ρ c (Proc.devRef .tc main_v15) = val_main_v74 (F := Ideal) (aE m c) := by
  refine (where_core (W1 m ρ c)).trans ?_
  rw [degpos2_at1, degpow2_at1, zero2_at1]
  exact (dinv2_eq _).symm

theorem src_at2 (c : Dev nD) : W2 m ρ c (Proc.devRef .tc main_v5) = val_main_v15 (F := Ideal) (aE m c) :=
  (StableHlo.after_of_forall_not_mem _ _ (by no_write hostOps0_1)).trans (src_at1 m ρ c)
theorem dst_at2 (c : Dev nD) : W2 m ρ c (Proc.devRef .tc main_v6) = val_main_v16 (F := Ideal) (aE m c) :=
  (StableHlo.after_of_forall_not_mem _ _ (by no_write hostOps0_1)).trans (dst_at1 m ρ c)
theorem src2_at2 (c : Dev nD) : W2 m ρ c (Proc.devRef .tc main_v5) = val_main_v64 (F := Ideal) (aE m c) :=
  (StableHlo.after_of_forall_not_mem _ _ (by no_write hostOps0_1)).trans (src2_at1 m ρ c)
theorem dst2_at2 (c : Dev nD) : W2 m ρ c (Proc.devRef .tc main_v6) = val_main_v65 (F := Ideal) (aE m c) :=
  (StableHlo.after_of_forall_not_mem _ _ (by no_write hostOps0_1)).trans (dst2_at1 m ρ c)

theorem src_at3 (c : Dev nD) : W3 m ρ c (Proc.devRef .tc main_v5) = val_main_v15 (F := Ideal) (aE m c) :=
  (StableHlo.after_of_forall_not_mem _ _ (by no_write hostOps0_2)).trans (src_at2 m ρ c)
theorem dst_at3 (c : Dev nD) : W3 m ρ c (Proc.devRef .tc main_v6) = val_main_v16 (F := Ideal) (aE m c) :=
  (StableHlo.after_of_forall_not_mem _ _ (by no_write hostOps0_2)).trans (dst_at2 m ρ c)
theorem src2_at3 (c : Dev nD) : W3 m ρ c (Proc.devRef .tc main_v5) = val_main_v64 (F := Ideal) (aE m c) :=
  (StableHlo.after_of_forall_not_mem _ _ (by no_write hostOps0_2)).trans (src2_at2 m ρ c)
theorem dst2_at3 (c : Dev nD) : W3 m ρ c (Proc.devRef .tc main_v6) = val_main_v65 (F := Ideal) (aE m c) :=
  (StableHlo.after_of_forall_not_mem _ _ (by no_write hostOps0_2)).trans (dst2_at2 m ρ c)

/-- The per-edge normalisation: the inverse square roots of the two endpoints' degrees, multiplied. -/
theorem norm_at3 (c : Dev nD) : W3 m ρ c (Proc.devRef .tc main_v30) = val_main_v40 (F := Ideal) (aE m c) := by
  refine (norm_core (W2 m ρ c)).trans ?_
  rw [dinv_at2, src_at2, dst_at2]
  exact (norm1_eq _).symm
theorem norm2_at3 (c : Dev nD) : W3 m ρ c (Proc.devRef .tc main_v30) = val_main_v89 (F := Ideal) (aE m c) := by
  refine (norm_core (W2 m ρ c)).trans ?_
  rw [dinv2_at2, src2_at2, dst2_at2]
  exact (norm2_eq _).symm

/-! ### Where the third and the fifth call's stretches read them: nothing in between writes them -/

/-- From the first call's entry to the second call's exit. -/
theorem carry_6_3 (c : Dev nD) (b : Ref sig .tc) (n0 : ∀ w, Pipeline.arrRef spec0 w ≠ b)
    (h1 : ∀ op ∈ (hostOps1 : List (HloOp τ sig (Elt Ideal))), Proc.devRef .tc b ∉ op.writes)
    (n1 : ∀ w, Pipeline.arrRef spec1 w ≠ b) :
    W6 m ρ c (Proc.devRef .tc b) = W3 m ρ c (Proc.devRef .tc b) :=
  (carry_6_4 m ρ c b h1 n1).trans (carry_4_3 m ρ c b n0)

/-- From the second call's exit to the fourth call's exit. -/
theorem carry_10_6 (c : Dev nD) (b : Ref sig .tc)
    (h2 : ∀ op ∈ (hostOps2 : List (HloOp τ sig (Elt Ideal))), Proc.devRef .tc b ∉ op.writes)
    (n2 : ∀ w, Pipeline.arrRef spec2 w ≠ b)
    (h3 : ∀ op ∈ (hostOps3 : List (HloOp τ sig (Elt Ideal))), Proc.devRef .tc b ∉ op.writes)
    (n3 : ∀ w, Pipeline.arrRef spec3 w ≠ b) :
    W10 m ρ c (Proc.devRef .tc b) = W6 m ρ c (Proc.devRef .tc b) :=
  (carry_10_8 m ρ c b h3 n3).trans (carry_8_6 m ρ c b h2 n2)

theorem src_at6 (c : Dev nD) : W6 m ρ c (Proc.devRef .tc main_v5) = val_main_v15 (F := Ideal) (aE m c) :=
  (carry_6_3 m ρ c main_v5 (by decide) (by no_write hostOps1) (by decide)).trans (src_at3 m ρ c)
theorem dst_at6 (c : Dev nD) : W6 m ρ c (Proc.devRef .tc main_v6) = val_main_v16 (F := Ideal) (aE m c) :=
  (carry_6_3 m ρ c main_v6 (by decide) (by no_write hostOps1) (by decide)).trans (dst_at3 m ρ c)
theorem norm_at6 (c : Dev nD) : W6 m ρ c (Proc.devRef .tc main_v30) = val_main_v40 (F := Ideal) (aE m c) :=
  (carry_6_3 m ρ c main_v30 (by decide) (by no_write hostOps1) (by decide)).trans (norm_at3 m ρ c)

theorem src2_at10 (c : Dev nD) : W10 m ρ c (Proc.devRef .tc main_v5) = val_main_v64 (F := Ideal) (aE m c) :=
  (carry_10_6 m ρ c main_v5 (by no_write hostOps2) (by decide) (by no_write hostOps3) (by decide)).trans
    ((carry_6_3 m ρ c main_v5 (by decide) (by no_write hostOps1) (by decide)).trans (src2_at3 m ρ c))
theorem dst2_at10 (c : Dev nD) : W10 m ρ c (Proc.devRef .tc main_v6) = val_main_v65 (F := Ideal) (aE m c) :=
  (carry_10_6 m ρ c main_v6 (by no_write hostOps2) (by decide) (by no_write hostOps3) (by decide)).trans
    ((carry_6_3 m ρ c main_v6 (by decide) (by no_write hostOps1) (by decide)).trans (dst2_at3 m ρ c))
theorem norm2_at10 (c : Dev nD) : W10 m ρ c (Proc.devRef .tc main_v30) = val_main_v89 (F := Ideal) (aE m c) :=
  (carry_10_6 m ρ c main_v30 (by no_write hostOps2) (by decide) (by no_write hostOps3) (by decide)).trans
    ((carry_6_3 m ρ c main_v30 (by decide) (by no_write hostOps1) (by decide)).trans (norm2_at3 m ρ c))

/-! ## The five calls, in order -/

/-- After the first call: the input projection. -/
theorem stage0 (c : Dev nD) :
    W4 m ρ c (Proc.devRef .tc main_v31) = val_main_v8 (F := Ideal) (aX m c) (aW m c) (aB m c) := by
  refine ((W4_arr m ρ c 3).trans (final0 (V3 m ρ) c)).trans ?_
  rw [proj_stage]
  show biasRelu (r := 50000) (mm (r := 50000) (W3 m ρ c (Proc.devRef .tc main_arg0)) (W3 m ρ c (Proc.devRef .tc main_arg2)))
      (W3 m ρ c (Proc.devRef .tc main_arg3)) = _
  rw [x_at3, w_at3, b_at3]

/-- The second call's operands: the projection (the stretch in between does not write it) and the first layer's
    weights, sliced from the stacked weights. -/
theorem in1_x (c : Dev nD) : W5 m ρ c (Proc.devRef .tc main_v31) = val_main_v8 (F := Ideal) (aX m c) (aW m c) (aB m c) :=
  (StableHlo.after_of_forall_not_mem _ _ (by no_write hostOps1)).trans (stage0 m ρ c)
theorem in1_w (c : Dev nD) : W5 m ρ c (Proc.devRef .tc main_v33) = val_main_v10 (F := Ideal) (aCW m c) := by
  show StableHlo.after hostOps1 (W4 m ρ c) (Proc.devRef .tc main_v33) = _
  dsimp only [hostOps1]
  after_results
  rw [cw_at4]
  rfl

/-- After the second call: the first layer's product. -/
theorem stage1 (c : Dev nD) :
    W6 m ρ c (Proc.devRef .tc main_v34) = val_main_v13 (F := Ideal) (aX m c) (aW m c) (aB m c) (aCW m c) := by
  refine ((W6_arr m ρ c 2).trans (final1 (V5 m ρ) c)).trans ?_
  rw [mm_stage1]
  show mm (r := 50000) (W5 m ρ c (Proc.devRef .tc main_v31)) (W5 m ρ c (Proc.devRef .tc main_v33)) = _
  rw [in1_x, in1_w]

/-- The third call's operands: the first layer's aggregation, which the stretch before the call computes from the
    product, the indices and the normalisation, and the first layer's bias row. -/
theorem in2_g (c : Dev nD) :
    W7 m ρ c (Proc.devRef .tc main_v47) = agg1 (aE m c) (val_main_v13 (F := Ideal) (aX m c) (aW m c) (aB m c) (aCW m c)) := by
  refine (agg_core2 (W6 m ρ c)).trans ?_
  rw [dst_at6, src_at6, norm_at6, stage1]
  exact (agg1_eq _ _).symm
theorem in2_b (c : Dev nD) : W7 m ρ c (Proc.devRef .tc main_v49) = val_main_v12 (F := Ideal) (aCB m c) := by
  show StableHlo.after hostOps2 (W6 m ρ c) (Proc.devRef .tc main_v49) = _
  dsimp only [hostOps2]
  after_results
  rw [cb_at6]
  rfl

/-- After the third call: the first layer's output. -/
theorem stage2 (c : Dev nD) :
    W8 m ρ c (Proc.devRef .tc main_v50) = val_main_v57 (F := Ideal) (aX m c) (aE m c) (aW m c) (aB m c) (aCW m c) (aCB m c) := by
  refine ((W8_arr m ρ c 2).trans (final2 (V7 m ρ) c)).trans ?_
  rw [bias_stage1, agg_stage1]
  show biasRelu (r := 50000) (W7 m ρ c (Proc.devRef .tc main_v47)) (W7 m ρ c (Proc.devRef .tc main_v49)) = _
  rw [in2_g, in2_b]

/-- The fourth call's operands. -/
theorem in3_x (c : Dev nD) :
    W9 m ρ c (Proc.devRef .tc main_v50) = val_main_v57 (F := Ideal) (aX m c) (aE m c) (aW m c) (aB m c) (aCW m c) (aCB m c) :=
  (StableHlo.after_of_forall_not_mem _ _ (by no_write hostOps3)).trans (stage2 m ρ c)
theorem in3_w (c : Dev nD) : W9 m ρ c (Proc.devRef .tc main_v52) = val_main_v59 (F := Ideal) (aCW m c) := by
  show StableHlo.after hostOps3 (W8 m ρ c) (Proc.devRef .tc main_v52) = _
  dsimp only [hostOps3]
  after_results
  rw [cw_at8]
  rfl

/-- After the fourth call: the second layer's product. -/
theorem stage3 (c : Dev nD) :
    W10 m ρ c (Proc.devRef .tc main_v53) = val_main_v62 (F := Ideal) (aX m c) (aE m c) (aW m c) (aB m c) (aCW m c) (aCB m c) := by
  refine ((W10_arr m ρ c 2).trans (final3 (V9 m ρ) c)).trans ?_
  rw [mm_stage2]
  show mm (r := 50000) (W9 m ρ c (Proc.devRef .tc main_v50)) (W9 m ρ c (Proc.devRef .tc main_v52)) = _
  rw [in3_x, in3_w]

/-- The fifth call's operands. -/
theorem in4_g (c : Dev nD) :
    W11 m ρ c (Proc.devRef .tc main_v66)
      = agg2 (aE m c) (val_main_v62 (F := Ideal) (aX m c) (aE m c) (aW m c) (aB m c) (aCW m c) (aCB m c)) := by
  refine (agg_core4 (W10 m ρ c)).trans ?_
  rw [dst2_at10, src2_at10, norm2_at10, stage3]
  exact (agg2_eq _ _).symm
theorem in4_b (c : Dev nD) : W11 m ρ c (Proc.devRef .tc main_v68) = val_main_v61 (F := Ideal) (aCB m c) := by
  show StableHlo.after hostOps4 (W10 m ρ c) (Proc.devRef .tc main_v68) = _
  dsimp only [hostOps4]
  after_results
  rw [cb_at10]
  rfl

/-- After the fifth call: the result buffer holds the reference's result of the same arguments. -/
theorem result_eq (c : Dev nD) :
    W12 m ρ c (Proc.devRef .tc main_v69) = val_main_v106 (F := Ideal) (aX m c) (aE m c) (aW m c) (aB m c) (aCW m c) (aCB m c) := by
  refine ((W12_arr m ρ c 2).trans (final4 (V11 m ρ) c)).trans ?_
  rw [bias_stage2, agg_stage2]
  show biasRelu (r := 50000) (W11 m ρ c (Proc.devRef .tc main_v66)) (W11 m ρ c (Proc.devRef .tc main_v68)) = _
  rw [in4_g, in4_b]

/-! ## The run -/

/-- Every weakly fair execution of the kernel program terminates, nothing faulting, with the result array at the
    reference's result of the launch arguments and the arguments unchanged. -/
theorem run_value : θ_run defs (onTc (τ := τ) (main (F := Ideal))) ⟨m, fun _ => 0, ρ⟩ (fun r => ∀ c : Dev nD,
      r.2.mem ((c.tc : Thread nD τ).loc main_v69) = val_main_v106 (F := Ideal) (aX m c) (aE m c) (aW m c) (aB m c) (aCW m c) (aCB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_named m ρ)

end Cert.KernelIdeal.Chain

end
-- ==== Proof.lean ====
/-
  A two-layer graph convolution network, computed two ways, gives one result over the extended reals.

  Both programs take node features x (50000 × 256), an edge list, a projection (w, β) and two layers' stacked
  weights and biases, and compute

    p = max (x · w + β) 0,      then twice      x' = max (A(x · Wᵢ) + βᵢ) 0,

  where A gathers the rows of its operand along the edges (every node also its own neighbour), scales each by the
  product of the inverse square roots of its endpoints' degrees, and scatter-adds them at the edges' targets. The
  reference does everything with host operations. The kernel program does the three products and the three
  bias-and-clamp steps in five pallas_calls over blocks of 2000 rows — the products on operands narrowed to bf16,
  which is the identity on extended reals — and the degree, normalisation, gather and scatter-add with the very
  same host operations as the reference, computing the normalisation once instead of once per layer.

  The dense steps act on a matrix row by row, so computing them block of rows by block of rows gives the same
  matrix (Proof/Spec.lean; per call Proof/ValueProj.lean, ValueMm1.lean, ValueBias2.lean and their two siblings).
  Walking the kernel program's buffers from boundary to boundary, each call's result array is the reference's
  stage of the same name (Proof/KernelChain.lean over Proof/RefValue.lean), and so the final array is the
  reference's result of the same arguments: `algebraic`. No law of the extended reals beyond reordering the 256
  terms of a product's sum is used, so the finiteness of the inputs is never opened. The ideal pass rewrote no
  operation: `preserves` is `True`.
-/
import proofs.«105945_j63513976373392_1_alg».proof.Defs
import proofs.«105945_j63513976373392_1_alg».proof.Proof.Gen.Kernel
import proofs.«105945_j63513976373392_1_alg».proof.Proof.Gen.Kernel.Skeleton
import proofs.«105945_j63513976373392_1_alg».proof.Proof.Gen.Kernel.Launch
import proofs.«105945_j63513976373392_1_alg».proof.Proof.Gen.Kernel.Points
import proofs.«105945_j63513976373392_1_alg».proof.Proof.Gen.Kernel.Frame
import proofs.«105945_j63513976373392_1_alg».proof.Proof.Gen.KernelIdeal
import proofs.«105945_j63513976373392_1_alg».proof.Proof.Gen.KernelIdeal.Skeleton
import proofs.«105945_j63513976373392_1_alg».proof.Proof.Gen.KernelIdeal.Launch
import proofs.«105945_j63513976373392_1_alg».proof.Proof.Gen.KernelIdeal.Points
import proofs.«105945_j63513976373392_1_alg».proof.Proof.Gen.KernelIdeal.Frame
import proofs.«105945_j63513976373392_1_alg».proof.Proof.Gen.ReferenceIdeal
import proofs.«105945_j63513976373392_1_alg».proof.Proof.Gen.Pre_finite_inputs
import proofs.«105945_j63513976373392_1_alg».proof.Proof.KernelChain
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the reference's result of those arguments. -/
theorem algebraic : Cert.algebraic_KernelIdeal_ReferenceIdeal := by
  intro m ρ m' ρ' _ hagree
  refine ⟨fun c => Cert.ReferenceIdeal.ReadP.val_main_v106 (F := Ideal) (Cert.KernelIdeal.Chain.aX m c) (Cert.KernelIdeal.Chain.aE m c)
      (Cert.KernelIdeal.Chain.aW m c) (Cert.KernelIdeal.Chain.aB m c) (Cert.KernelIdeal.Chain.aCW m c) (Cert.KernelIdeal.Chain.aCB m c),
    Cert.KernelIdeal.Chain.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v106_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
